-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4 : Shape := ⟨3, ![2, 4096, 4]⟩
abbrev S2x16384x4 : Shape := ⟨3, ![2, 16384, 4]⟩
abbrev S_ : Shape := ⟨0, ![]⟩

class Facts : Prop where
  bcast_S_S2x4096x4 : S_.BroadcastsInDim S2x4096x4 (![] : Fin 0 → Fin S2x4096x4.rank)
  reducesTo_S2x4096x4_S_d0_1_2 : S2x4096x4.ReducesTo [0, 1, 2] S_
  h_S_ : 0 < S_.numel
  bcast_S_S2x16384x4 : S_.BroadcastsInDim S2x16384x4 (![] : Fin 0 → Fin S2x16384x4.rank)
  reducesTo_S2x16384x4_S_d0_1_2 : S2x16384x4.ReducesTo [0, 1, 2] S_

variable [Facts]

def fn {F : FTy → Type} [FloatOps F] (main_arg0 : FVec F S2x4096x4 .f32) (main_arg1 : FVec F S2x16384x4 .f32) : IVec S_ 1 :=
  let main_v0 : FVec F S2x4096x4 .f32 := Host.absf main_arg0
  let main_cst : FVec F S_ .f32 := constant S_ .f32 0x7F800000#32
  let main_v1 : FVec F S2x4096x4 .f32 := broadcastInDim S2x4096x4 ![] bcast_S_S2x4096x4 main_cst
  let main_v2 : IVec S2x4096x4 1 := cmpf .olt main_v0 main_v1
  let main_c : IVec S_ 1 := constantI S_ 1 1#1
  let main_v3 : IVec S_ 1 := (fun x v => Host.reduce IntOp.andi x v reducesTo_S2x4096x4_S_d0_1_2 h_S_) main_v2 main_c
  let main_v4 : FVec F S2x16384x4 .f32 := Host.absf main_arg1
  let main_cst_0 : FVec F S_ .f32 := constant S_ .f32 0x7F800000#32
  let main_v5 : FVec F S2x16384x4 .f32 := broadcastInDim S2x16384x4 ![] bcast_S_S2x16384x4 main_cst_0
  let main_v6 : IVec S2x16384x4 1 := cmpf .olt main_v4 main_v5
  let main_c_1 : IVec S_ 1 := constantI S_ 1 1#1
  let main_v7 : IVec S_ 1 := (fun x v => Host.reduce IntOp.andi x v reducesTo_S2x16384x4_S_d0_1_2 h_S_) main_v6 main_c_1
  let main_v8 : IVec S_ 1 := andi main_v3 main_v7
  main_v8
-- ==== Kernel.lean ====
abbrev S2x4096x4 : Shape := ⟨3, ![2, 4096, 4]⟩
abbrev S2x16384x4 : Shape := ⟨3, ![2, 16384, 4]⟩
abbrev S2x8x128 : Shape := ⟨3, ![2, 8, 128]⟩
abbrev S1x4096x4 : Shape := ⟨3, ![1, 4096, 4]⟩
abbrev S1x256x4 : Shape := ⟨3, ![1, 256, 4]⟩
abbrev S1x8x128 : Shape := ⟨3, ![1, 8, 128]⟩
abbrev S1x4096 : Shape := ⟨2, ![1, 4096]⟩
abbrev S1x1 : Shape := ⟨2, ![1, 1]⟩
abbrev S4096x4 : Shape := ⟨2, ![4096, 4]⟩
abbrev S256x4 : Shape := ⟨2, ![256, 4]⟩
abbrev S4096x3 : Shape := ⟨2, ![4096, 3]⟩
abbrev S256x3 : Shape := ⟨2, ![256, 3]⟩
abbrev S4096 : Shape := ⟨1, ![4096]⟩
abbrev S4096x1 : Shape := ⟨2, ![4096, 1]⟩
abbrev S256 : Shape := ⟨1, ![256]⟩
abbrev S256x1 : Shape := ⟨2, ![256, 1]⟩
abbrev S256x4096 : Shape := ⟨2, ![256, 4096]⟩
abbrev S1 : Shape := ⟨1, ![1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S2x4096x4, .f32⟩
  | .hbm, ⟨1, _⟩ => ⟨S2x16384x4, .f32⟩
  | .hbm, ⟨2, _⟩ => ⟨S2x8x128, .f32⟩
  | .hbm, ⟨3, _⟩ => ⟨S2x1x1, .f32⟩
  | .hbm, ⟨4, _⟩ => ⟨S2, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x4096x4, .f32⟩
  | .local _ .vmem, ⟨1, _⟩ => ⟨S1x4096x4, .f32⟩
  | .local _ .vmem, ⟨2, _⟩ => ⟨S1x256x4, .f32⟩
  | .local _ .vmem, ⟨3, _⟩ => ⟨S1x256x4, .f32⟩
  | .local _ .vmem, ⟨4, _⟩ => ⟨S1x8x128, .f32⟩
  | .local _ .vmem, ⟨5, _⟩ => ⟨S1x8x128, .f32⟩
  | .local _ .vmem, ⟨6, _⟩ => ⟨S1x4096, .f32⟩
  | .local _ .vmem, ⟨7, _⟩ => ⟨S1x1, .f32⟩
  | _, _ => ⟨S2x4096x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v44 : BitVec 1 := Scalar.cmpi .eq arg1 c63_i32
  let v45 : BitVec 32 := Scalar.extui v44
  let c0_i32_21 : BitVec 32 := 0#32
  let v46 : BitVec 1 := Scalar.cmpi .ne v45 c0_i32_21
  v46

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x4096x4_S1x4096x4_0_0_0 : ∀ a, (![0, 0, 0] : Fin 3 → Nat) a + S1x4096x4.size a ≤ S1x4096x4.size a
  h_S1x4096x4 : 0 < S1x4096x4.numel
  shapeCasts_S1x4096x4_S4096x4 : S1x4096x4.ShapeCasts S4096x4
  inb_S1x256x4_S1x256x4_0_0_0 : ∀ a, (![0, 0, 0] : Fin 3 → Nat) a + S1x256x4.size a ≤ S1x256x4.size a
  h_S1x256x4 : 0 < S1x256x4.numel
  shapeCasts_S1x256x4_S256x4 : S1x256x4.ShapeCasts S256x4
  slices_S4096x4_o0_0_S4096x3 : S4096x4.Slices ![0, 0] S4096x3
  slices_S256x4_o0_0_S256x3 : S256x4.Slices ![0, 0] S256x3
  reduces_S4096x3_S4096 : S4096x3.Reduces [1] S4096
  shapeCasts_S4096_S4096x1 : S4096.ShapeCasts S4096x1
  reduces_S256x3_S256 : S256x3.Reduces [1] S256
  shapeCasts_S256_S256x1 : S256.ShapeCasts S256x1
  transposes_S4096x1_p1_0_S1x4096 : S4096x1.Transposes [1, 0] S1x4096
  bitsLt_bf16_f32 : FTy.bits .bf16 < FTy.bits .f32
  broadcasts_S256x1_S256x4096 : S256x1.Broadcasts S256x4096
  broadcasts_S1x4096_S256x4096 : S1x4096.Broadcasts S256x4096
  reduces_S256x4096_S256 : S256x4096.Reduces [1] S256
  reduces_S256x1_S1 : S256x1.Reduces [0] S1
  shapeCasts_S1_S1x1 : S1.ShapeCasts S1x1
  reduces_S256x4096_S4096 : S256x4096.Reduces [0] S4096
  shapeCasts_S4096_S1x4096 : S4096.ShapeCasts S1x4096
  reduces_S1x4096_S1 : S1x4096.Reduces [1] S1
  shapeCasts_S1x1_S1x1x1 : S1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  dot_S256x3_S4096x3_S256x4096_1_1_0_0_n_n_wf : DotDims.WF S256x3 S4096x3 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x4.size a ≤ S2x4096x4.size a
  hwx0_0 : ∀ i : grid0.Coords, EltTy.bits .f32 = 32 ∨ (Rect.block (s := S2x4096x4) S1x4096x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x4.size a ≤ S2x16384x4.size a
  hwx0_1 : ∀ i : grid0.Coords, EltTy.bits .f32 = 32 ∨ (Rect.block (s := S2x16384x4) S1x256x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

def dot_S256x3_S4096x3_S256x4096_1_1_0_0_n_n : DotDims S256x3 S4096x3 S256x4096 where
  lhsContracting := [1]
  rhsContracting := [1]
  lhsNonContracting := [0]
  rhsNonContracting := [0]
  lhsBatch := []
  rhsBatch := []
  wf := dot_S256x3_S4096x3_S256x4096_1_1_0_0_n_n_wf

abbrev win0_0 : Pipeline.Window sig grid0 :=
  Pipeline.Window.ofSpec (Memref.whole main_arg0) S1x4096x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x4096x4 : Shape := ⟨3, ![2, 4096, 4]⟩
abbrev S2x16384x4 : Shape := ⟨3, ![2, 16384, 4]⟩
abbrev S2x4096x3 : Shape := ⟨3, ![2, 4096, 3]⟩
abbrev S2x16384x3 : Shape := ⟨3, ![2, 16384, 3]⟩
abbrev S_ : Shape := ⟨0, ![]⟩
abbrev S2x4096 : Shape := ⟨2, ![2, 4096]⟩
abbrev S2x4096x1 : Shape := ⟨3, ![2, 4096, 1]⟩
abbrev S2x16384 : Shape := ⟨2, ![2, 16384]⟩
abbrev S2x1x16384 : Shape := ⟨3, ![2, 1, 16384]⟩
abbrev S2x4096x16384 : Shape := ⟨3, ![2, 4096, 16384]⟩
abbrev S2x3x16384 : Shape := ⟨3, ![2, 3, 16384]⟩
abbrev S2 : Shape := ⟨1, ![2]⟩

abbrev nBuf : Space → Nat
  | .hbm => 53
  | .vmem => 0
  | .smem => 0
  | _ => 0

abbrev bufTy : (tb : Table) → Fin (tcTables nBuf tb) → BufTy
  | .hbm, ⟨0, _⟩ => ⟨S2x4096x4, .f32⟩
  | .hbm, ⟨1, _⟩ => ⟨S2x16384x4, .f32⟩
  | .hbm, ⟨2, _⟩ => ⟨S2x4096x3, .f32⟩
  | .hbm, ⟨3, _⟩ => ⟨S2x16384x3, .f32⟩
  | .hbm, ⟨4, _⟩ => ⟨S2x4096x3, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S2x16384x3, .f32⟩
  | .hbm, ⟨9, _⟩ => ⟨S_, .f32⟩
  | .hbm, ⟨10, _⟩ => ⟨S2x16384, .f32⟩
  | .hbm, ⟨11, _⟩ => ⟨S2x1x16384, .f32⟩
  | .hbm, ⟨12, _⟩ => ⟨S2x4096x16384, .f32⟩
  | .hbm, ⟨13, _⟩ => ⟨S2x4096x16384, .f32⟩
  | .hbm, ⟨14, _⟩ => ⟨S2x4096x16384, .f32⟩
  | .hbm, ⟨15, _⟩ => ⟨S2x3x16384, .f32⟩
  | .hbm, ⟨16, _⟩ => ⟨S2x4096x16384, .f32⟩
  | .hbm, ⟨17, _⟩ => ⟨S_, .f32⟩
  | .hbm, ⟨18, _⟩ => ⟨S2x4096x16384, .f32⟩
  | .hbm, ⟨19, _⟩ => ⟨S2x4096x16384, .f32⟩
  | .hbm, ⟨20, _⟩ => ⟨S2x4096x16384, .f32⟩
  | .hbm, ⟨21, _⟩ => ⟨S_, .f32⟩
  | .hbm, ⟨22, _⟩ => ⟨S2x4096x16384, .f32⟩
  | .hbm, ⟨23, _⟩ => ⟨S2x4096x16384, .f32⟩
  | .hbm, ⟨24, _⟩ => ⟨S2x4096x16384, .f32⟩
  | .hbm, ⟨25, _⟩ => ⟨S_, .f32⟩
  | .hbm, ⟨26, _⟩ => ⟨S2x16384, .f32⟩
  | .hbm, ⟨27, _⟩ => ⟨S_, .f32⟩
  | .hbm, ⟨28, _⟩ => ⟨S2x4096, .f32⟩
  | .hbm, ⟨29, _⟩ => ⟨S_, .f32⟩
  | .hbm, ⟨30, _⟩ => ⟨S2, .f32⟩
  | .hbm, ⟨31, _⟩ => ⟨S_, .f32⟩
  | .hbm, ⟨32, _⟩ => ⟨S2, .f32⟩
  | .hbm, ⟨33, _⟩ => ⟨S2, .f32⟩
  | .hbm, ⟨34, _⟩ => ⟨S_, .f32⟩
  | .hbm, ⟨35, _⟩ => ⟨S2, .f32⟩
  | .hbm, ⟨36, _⟩ => ⟨S_, .f32⟩
  | .hbm, ⟨37, _⟩ => ⟨S2, .f32⟩
  | .hbm, ⟨38, _⟩ => ⟨S2, .f32⟩
  | .hbm, ⟨39, _⟩ => ⟨S_, .f32⟩
  | .hbm, ⟨40, _⟩ => ⟨S2, .f32⟩
  | .hbm, ⟨41, _⟩ => ⟨S_, .f32⟩
  | .hbm, ⟨42, _⟩ => ⟨S2, .f32⟩
  | .hbm, ⟨43, _⟩ => ⟨S2, .f32⟩
  | .hbm, ⟨44, _⟩ => ⟨S_, .f32⟩
  | .hbm, ⟨45, _⟩ => ⟨S2, .f32⟩
  | .hbm, ⟨46, _⟩ => ⟨S2, .f32⟩
  | .hbm, ⟨47, _⟩ => ⟨S2, .f32⟩
  | .hbm, ⟨48, _⟩ => ⟨S2, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S2x4096x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_cst_8 : Ref sig .tc := ⟨.hbm, 36, rfl⟩
abbrev main_v25 : Ref sig .tc := ⟨.hbm, 37, rfl⟩
abbrev main_v26 : Ref sig .tc := ⟨.hbm, 38, rfl⟩
abbrev main_cst_9 : Ref sig .tc := ⟨.hbm, 39, rfl⟩
abbrev main_v27 : Ref sig .tc := ⟨.hbm, 40, rfl⟩
abbrev main_cst_10 : Ref sig .tc := ⟨.hbm, 41, rfl⟩
abbrev main_v28 : Ref sig .tc := ⟨.hbm, 42, rfl⟩
abbrev main_v29 : Ref sig .tc := ⟨.hbm, 43, rfl⟩
abbrev main_cst_11 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_12 : Ref sig .tc := ⟨.hbm, 49, rfl⟩
abbrev main_v34 : Ref sig .tc := ⟨.hbm, 50, rfl⟩
abbrev main_cst_13 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  slices_S2x4096x4_S2x4096x3_0_0_0 : S2x4096x4.Slices ![0, 0, 0] S2x4096x3
  slices_S2x16384x4_S2x16384x3_0_0_0 : S2x16384x4.Slices ![0, 0, 0] S2x16384x3
  reducesTo_S2x4096x3_S2x4096_d2 : S2x4096x3.ReducesTo [2] S2x4096
  h_S_ : 0 < S_.numel
  bcast_S2x4096_S2x4096x1_0_1 : S2x4096.BroadcastsInDim S2x4096x1 (![0, 1] : Fin 2 → Fin S2x4096x1.rank)
  reducesTo_S2x16384x3_S2x16384_d2 : S2x16384x3.ReducesTo [2] S2x16384
  bcast_S2x16384_S2x1x16384_0_2 : S2x16384.BroadcastsInDim S2x1x16384 (![0, 2] : Fin 2 → Fin S2x1x16384.rank)
  bcast_S2x4096x1_S2x4096x16384_0_1_2 : S2x4096x1.BroadcastsInDim S2x4096x16384 (![0, 1, 2] : Fin 3 → Fin S2x4096x16384.rank)
  bcast_S2x1x16384_S2x4096x16384_0_1_2 : S2x1x16384.BroadcastsInDim S2x4096x16384 (![0, 1, 2] : Fin 3 → Fin S2x4096x16384.rank)
  transposes_S2x16384x3_S2x3x16384_0_2_1 : S2x16384x3.Transposes [0, 2, 1] S2x3x16384
  bcast_S_S2x4096x16384 : S_.BroadcastsInDim S2x4096x16384 (![] : Fin 0 → Fin S2x4096x16384.rank)
  reducesTo_S2x4096x16384_S2x16384_d1 : S2x4096x16384.ReducesTo [1] S2x16384
  reducesTo_S2x4096x16384_S2x4096_d2 : S2x4096x16384.ReducesTo [2] S2x4096
  reducesTo_S2x16384_S2_d1 : S2x16384.ReducesTo [1] S2
  bcast_S_S2 : S_.BroadcastsInDim S2 (![] : Fin 0 → Fin S2.rank)
  reducesTo_S2x4096_S2_d1 : S2x4096.ReducesTo [1] S2
  reducesTo_S2_S_d0 : S2.ReducesTo [0] S_
  dot_S2x4096x3_S2x3x16384_S2x4096x16384_2_1_1_2_0_0_wf : DotDims.WF S2x4096x3 S2x3x16384 S2x4096x16384 [2] [1] [1] [2] [0] [0]

variable [Facts₀]

def dot_S2x4096x3_S2x3x16384_S2x4096x16384_2_1_1_2_0_0 : DotDims S2x4096x3 S2x3x16384 S2x4096x16384 where
  lhsContracting := [2]
  rhsContracting := [1]
  lhsNonContracting := [1]
  rhsNonContracting := [2]
  lhsBatch := [0]
  rhsBatch := [0]
  wf := dot_S2x4096x3_S2x3x16384_S2x4096x16384_2_1_1_2_0_0_wf

class Facts : Prop extends Facts₀ where

variable [Facts]
-- ==== Proof.KernelPieces.lean ====
import proofs.«140951_j70480413328151_1_alg».proof.Proof.Gen.KernelIdeal.Frame
import Idealize.ShloMosaic.Lib.Pipeline.Value

set_option maxRecDepth 16384

noncomputable section

/-
  What each control case of the body leaves in the two scratch accumulators and in the output block, as the body's own
  arithmetic of what it loaded: at the first tile of a batch (case A) the running minima are the tile's against the
  word of +∞ and the running sum is the tile's added to the word of zero; at a later tile (cases B and C) they are the
  tile's against, and added to, what the tile before left; and at the last tile (case C) the block is the loss of those
  two updated accumulators.
-/
namespace Cert.KernelIdeal.Pieces

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

theorem hz2 : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

theorem sout0_A_0_eq (c : Dev nD) (i : grid0.Coords) (arg2 : Memref sig .tc .vmem S1x4096x4 .f32) (harg2 : arg2.IsWhole) (arg3 : Memref sig .tc .vmem S1x256x4 .f32) (harg3 : arg3.IsWhole) (arg4 : Memref sig .tc .vmem S1x8x128 .f32) (harg4 : arg4.IsWhole) (arg5 : Memref sig .tc .vmem S1x4096 .f32) (harg5 : arg5.IsWhole) (arg6 : Memref sig .tc .vmem S1x1 .f32) (harg6 : arg6.IsWhole) (hc0 : cond0_0 i) (hc1 : ¬cond0_1 i)
    (x0 : Vec F S1x4096x4 .f32) (x1 : Vec F S1x256x4 .f32) :
    sout0_A_0 c i arg2 harg2 arg3 harg3 arg4 harg4 arg5 harg5 arg6 harg6 hc0 hc1 x0 x1 = k0_pay2 (k0_pay7 x0 x1) (k0_pay4 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1x4096) hz2]
  simp only [View.readAt_eq_ld, harg2.read_unread, harg3.read_unread, harg5.read_unread, harg6.read_unread,
    View.ld_unit_zero (S := S1x4096x4) hz3, View.ld_unit_zero (S := S1x256x4) hz3, View.ld_unit_zero (S := S1x4096) hz2,
    View.ld_unit_zero (S := S1x1) hz2, View.readCov_unit_zero (S := S1x4096) _ hz2, View.readCov_unit_zero (S := S1x1) _ hz2]

theorem sout0_A_1_eq (c : Dev nD) (i : grid0.Coords) (arg2 : Memref sig .tc .vmem S1x4096x4 .f32) (harg2 : arg2.IsWhole) (arg3 : Memref sig .tc .vmem S1x256x4 .f32) (harg3 : arg3.IsWhole) (arg4 : Memref sig .tc .vmem S1x8x128 .f32) (harg4 : arg4.IsWhole) (arg5 : Memref sig .tc .vmem S1x4096 .f32) (harg5 : arg5.IsWhole) (arg6 : Memref sig .tc .vmem S1x1 .f32) (harg6 : arg6.IsWhole) (hc0 : cond0_0 i) (hc1 : ¬cond0_1 i)
    (x0 : Vec F S1x4096x4 .f32) (x1 : Vec F S1x256x4 .f32) :
    sout0_A_1 c i arg2 harg2 arg3 harg3 arg4 harg4 arg5 harg5 arg6 harg6 hc0 hc1 x0 x1 = k0_pay1 (k0_pay8 x0 x1 (k0_pay5 (F := F))) := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S1x1) hz2]
  simp only [View.readAt_eq_ld, harg2.read_unread, harg3.read_unread, harg5.read_unread, harg6.read_unread,
    View.ld_unit_zero (S := S1x4096x4) hz3, View.ld_unit_zero (S := S1x256x4) hz3, View.ld_unit_zero (S := S1x4096) hz2,
    View.ld_unit_zero (S := S1x1) hz2, View.readCov_unit_zero (S := S1x4096) _ hz2, View.readCov_unit_zero (S := S1x1) _ hz2]

theorem sout0_B_0_eq (c : Dev nD) (i : grid0.Coords) (arg2 : Memref sig .tc .vmem S1x4096x4 .f32) (harg2 : arg2.IsWhole) (arg3 : Memref sig .tc .vmem S1x256x4 .f32) (harg3 : arg3.IsWhole) (arg4 : Memref sig .tc .vmem S1x8x128 .f32) (harg4 : arg4.IsWhole) (arg5 : Memref sig .tc .vmem S1x4096 .f32) (harg5 : arg5.IsWhole) (arg6 : Memref sig .tc .vmem S1x1 .f32) (harg6 : arg6.IsWhole) (hc0 : ¬cond0_0 i) (hc1 : ¬cond0_1 i)
    (x0 : Vec F S1x4096x4 .f32) (x1 : Vec F S1x256x4 .f32) (xs0 : Vec F S1x4096 .f32) (xs1 : Vec F S1x1 .f32) :
    sout0_B_0 c i arg2 harg2 arg3 harg3 arg4 harg4 arg5 harg5 arg6 harg6 hc0 hc1 x0 x1 xs0 xs1 = k0_pay2 (k0_pay7 x0 x1) xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  rw [View.canon_unit_zero (S := S1x4096) hz2]
  simp only [View.readAt_eq_ld, harg2.read_unread, harg3.read_unread, harg5.read_unread, harg6.read_unread,
    View.ld_unit_zero (S := S1x4096x4) hz3, View.ld_unit_zero (S := S1x256x4) hz3, View.ld_unit_zero (S := S1x4096) hz2,
    View.ld_unit_zero (S := S1x1) hz2, View.readCov_unit_zero (S := S1x4096) _ hz2, View.readCov_unit_zero (S := S1x1) _ hz2]

theorem sout0_B_1_eq (c : Dev nD) (i : grid0.Coords) (arg2 : Memref sig .tc .vmem S1x4096x4 .f32) (harg2 : arg2.IsWhole) (arg3 : Memref sig .tc .vmem S1x256x4 .f32) (harg3 : arg3.IsWhole) (arg4 : Memref sig .tc .vmem S1x8x128 .f32) (harg4 : arg4.IsWhole) (arg5 : Memref sig .tc .vmem S1x4096 .f32) (harg5 : arg5.IsWhole) (arg6 : Memref sig .tc .vmem S1x1 .f32) (harg6 : arg6.IsWhole) (hc0 : ¬cond0_0 i) (hc1 : ¬cond0_1 i)
    (x0 : Vec F S1x4096x4 .f32) (x1 : Vec F S1x256x4 .f32) (xs0 : Vec F S1x4096 .f32) (xs1 : Vec F S1x1 .f32) :
    sout0_B_1 c i arg2 harg2 arg3 harg3 arg4 harg4 arg5 harg5 arg6 harg6 hc0 hc1 x0 x1 xs0 xs1 = k0_pay1 (k0_pay8 x0 x1 xs1) := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  rw [View.canon_unit_zero (S := S1x1) hz2]
  simp only [View.readAt_eq_ld, harg2.read_unread, harg3.read_unread, harg5.read_unread, harg6.read_unread,
    View.ld_unit_zero (S := S1x4096x4) hz3, View.ld_unit_zero (S := S1x256x4) hz3, View.ld_unit_zero (S := S1x4096) hz2,
    View.ld_unit_zero (S := S1x1) hz2, View.readCov_unit_zero (S := S1x4096) _ hz2, View.readCov_unit_zero (S := S1x1) _ hz2]

theorem sout0_C_0_eq (c : Dev nD) (i : grid0.Coords) (arg2 : Memref sig .tc .vmem S1x4096x4 .f32) (harg2 : arg2.IsWhole) (arg3 : Memref sig .tc .vmem S1x256x4 .f32) (harg3 : arg3.IsWhole) (arg4 : Memref sig .tc .vmem S1x8x128 .f32) (harg4 : arg4.IsWhole) (arg5 : Memref sig .tc .vmem S1x4096 .f32) (harg5 : arg5.IsWhole) (arg6 : Memref sig .tc .vmem S1x1 .f32) (harg6 : arg6.IsWhole) (hc0 : ¬cond0_0 i) (hc1 : cond0_1 i)
    (x0 : Vec F S1x4096x4 .f32) (x1 : Vec F S1x256x4 .f32) (xs0 : Vec F S1x4096 .f32) (xs1 : Vec F S1x1 .f32) :
    sout0_C_0 c i arg2 harg2 arg3 harg3 arg4 harg4 arg5 harg5 arg6 harg6 hc0 hc1 x0 x1 xs0 xs1 = k0_pay2 (k0_pay7 x0 x1) xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero (S := S1x4096) hz2]
  simp only [View.readAt_eq_ld, harg2.read_unread, harg3.read_unread, harg5.read_unread, harg6.read_unread,
    View.ld_unit_zero (S := S1x4096x4) hz3, View.ld_unit_zero (S := S1x256x4) hz3, View.ld_unit_zero (S := S1x4096) hz2,
    View.ld_unit_zero (S := S1x1) hz2, View.readCov_unit_zero (S := S1x4096) _ hz2, View.readCov_unit_zero (S := S1x1) _ hz2]

theorem sout0_C_1_eq (c : Dev nD) (i : grid0.Coords) (arg2 : Memref sig .tc .vmem S1x4096x4 .f32) (harg2 : arg2.IsWhole) (arg3 : Memref sig .tc .vmem S1x256x4 .f32) (harg3 : arg3.IsWhole) (arg4 : Memref sig .tc .vmem S1x8x128 .f32) (harg4 : arg4.IsWhole) (arg5 : Memref sig .tc .vmem S1x4096 .f32) (harg5 : arg5.IsWhole) (arg6 : Memref sig .tc .vmem S1x1 .f32) (harg6 : arg6.IsWhole) (hc0 : ¬cond0_0 i) (hc1 : cond0_1 i)
    (x0 : Vec F S1x4096x4 .f32) (x1 : Vec F S1x256x4 .f32) (xs0 : Vec F S1x4096 .f32) (xs1 : Vec F S1x1 .f32) :
    sout0_C_1 c i arg2 harg2 arg3 harg3 arg4 harg4 arg5 harg5 arg6 harg6 hc0 hc1 x0 x1 xs0 xs1 = k0_pay1 (k0_pay8 x0 x1 xs1) := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_unit_zero (S := S1x1) hz2]
  simp only [View.readAt_eq_ld, harg2.read_unread, harg3.read_unread, harg5.read_unread, harg6.read_unread,
    View.ld_unit_zero (S := S1x4096x4) hz3, View.ld_unit_zero (S := S1x256x4) hz3, View.ld_unit_zero (S := S1x4096) hz2,
    View.ld_unit_zero (S := S1x1) hz2, View.readCov_unit_zero (S := S1x4096) _ hz2, View.readCov_unit_zero (S := S1x1) _ hz2]

theorem out0_C_2_eq (c : Dev nD) (i : grid0.Coords) (arg2 : Memref sig .tc .vmem S1x4096x4 .f32) (harg2 : arg2.IsWhole) (arg3 : Memref sig .tc .vmem S1x256x4 .f32) (harg3 : arg3.IsWhole) (arg4 : Memref sig .tc .vmem S1x8x128 .f32) (harg4 : arg4.IsWhole) (arg5 : Memref sig .tc .vmem S1x4096 .f32) (harg5 : arg5.IsWhole) (arg6 : Memref sig .tc .vmem S1x1 .f32) (harg6 : arg6.IsWhole) (hc0 : ¬cond0_0 i) (hc1 : cond0_1 i)
    (x0 : Vec F S1x4096x4 .f32) (x1 : Vec F S1x256x4 .f32) (xs0 : Vec F S1x4096 .f32) (xs1 : Vec F S1x1 .f32) :
    out0_C_2 c i arg2 harg2 arg3 harg3 arg4 harg4 arg5 harg5 arg6 harg6 hc0 hc1 x0 x1 xs0 xs1 = k0_pay3 (k0_pay1 (k0_pay8 x0 x1 xs1)) (k0_pay2 (k0_pay7 x0 x1) xs0) (k0_pay2 (k0_pay7 x0 x1) xs0) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero (S := S1x8x128) hz3]
  simp only [View.readAt_eq_ld, harg2.read_unread, harg3.read_unread, harg5.read_unread, harg6.read_unread,
    View.ld_unit_zero (S := S1x4096x4) hz3, View.ld_unit_zero (S := S1x256x4) hz3, View.ld_unit_zero (S := S1x4096) hz2,
    View.ld_unit_zero (S := S1x1) hz2, View.readCov_unit_zero (S := S1x4096) _ hz2, View.readCov_unit_zero (S := S1x1) _ hz2]

end Cert.KernelIdeal.Pieces

end
-- ==== Proof.ChamferSpec.lean ====
/-
  The two-sided nearest-neighbour loss between two point clouds, as a function on the extended reals.

  For a batch `b`, a sampled point `i` (of 4096) and a raw point `j` (of 16384), only the first three of the
  four coordinates are used. With `|a_i|² = ∑ₖ a_ik²`, `|r_j|² = ∑ₖ r_jk²` and `a_i·r_j = ∑ₖ a_ik r_jk` (k over the three
  coordinates),
    dist b i j = √ max (|a_i|² + |r_j|² − 2 (a_i·r_j)) 0,
  and the loss of the batch is
    5 · (∑ⱼ minᵢ dist) / 16384 + (∑ᵢ minⱼ dist) / 4096 + maxᵢ minⱼ dist.
  The minima start from the word of +∞, the maximum from the word of −∞; the float words are kept as the
  patterns the programs spell (both programs spell the same ones), so none of them is evaluated here.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- The sampled cloud: 2 batches of 4096 points with 4 coordinates. -/
abbrev SX : Shape := ⟨3, ![2, 4096, 4]⟩
/-- The raw cloud: 2 batches of 16384 points with 4 coordinates. -/
abbrev SY : Shape := ⟨3, ![2, 16384, 4]⟩

/-- The words the two programs spell, read at the extended reals. -/
abbrev wTwo : EReal := Ideal.ofBits .f32 0x40000000#32
abbrev wZero : EReal := Ideal.ofBits .f32 0x00000000#32
abbrev wInf : EReal := Ideal.ofBits .f32 0x7F800000#32
abbrev wNegInf : EReal := Ideal.ofBits .f32 0xFF800000#32
abbrev wFive : EReal := Ideal.ofBits .f32 0x40A00000#32
abbrev wRawCount : EReal := Ideal.ofBits .f32 0x46800000#32
abbrev wSampledCount : EReal := Ideal.ofBits .f32 0x45800000#32

/-- One of the three coordinates used, as one of the four stored. -/
def c4 (k : Fin 3) : Fin 4 := ⟨k.val, by omega⟩

variable (x : SX.Idx → EReal) (y : SY.Idx → EReal)

/-- `|a_i|²` over the three coordinates used. -/
def sampledSq (b : Fin 2) (i : Fin 4096) : EReal := ∑ k : Fin 3, x (ix3 b i (c4 k)) * x (ix3 b i (c4 k))

/-- `|r_j|²` over the three coordinates used. -/
def rawSq (b : Fin 2) (j : Fin 16384) : EReal := ∑ k : Fin 3, y (ix3 b j (c4 k)) * y (ix3 b j (c4 k))

/-- `a_i · r_j` over the three coordinates used. -/
def crossTerm (b : Fin 2) (i : Fin 4096) (j : Fin 16384) : EReal := ∑ k : Fin 3, x (ix3 b i (c4 k)) * y (ix3 b j (c4 k))

/-- The distance between sampled point `i` and raw point `j`, from the expanded square, clamped at zero. -/
def pointDist (b : Fin 2) (i : Fin 4096) (j : Fin 16384) : EReal :=
  Ideal.sqrt (max ((sampledSq x b i + rawSq y b j) - wTwo * crossTerm x y b i j) wZero)

/-- The distance from raw point `j` to its nearest sampled point. -/
def nearestSampled (b : Fin 2) (j : Fin 16384) : EReal :=
  Finset.univ.fold min wInf (fun i : Fin 4096 => pointDist x y b i j)

/-- The distance from sampled point `i` to its nearest raw point. -/
def nearestRaw (b : Fin 2) (i : Fin 4096) : EReal :=
  Finset.univ.fold min wInf (fun j : Fin 16384 => pointDist x y b i j)

/-- The loss of one batch. -/
def loss (b : Fin 2) : EReal :=
  (wFive * Ideal.div (∑ j : Fin 16384, nearestSampled x y b j) wRawCount
      + Ideal.div (∑ i : Fin 4096, nearestRaw x y b i) wSampledCount)
    + Finset.univ.fold max wNegInf (fun i : Fin 4096 => nearestRaw x y b i)

/-- The mean over the two batches as both programs end: the two losses added from the word of zero, divided by the
    word of two (a host sum and a host quotient; the same lines in both programs, never opened). -/
def batchMean (v : FVec Ideal ⟨1, ![2]⟩ .f32) : FVec Ideal ⟨0, ![]⟩ .f32 :=
  Host.divf (F := Ideal)
    (Host.reduceAdd (F := Ideal) v (constant (F := Ideal) ⟨0, ![]⟩ .f32 0x00000000#32)
      (by decide : (⟨1, ![2]⟩ : Shape).ReducesTo [0] ⟨0, ![]⟩) (by decide : 0 < (⟨0, ![]⟩ : Shape).numel))
    (constant (F := Ideal) ⟨0, ![]⟩ .f32 0x40000000#32)

end Cert.Chamfer

end
-- ==== Proof.KernelTile.lean ====
/-
  What the kernel's body computes from one tile, read at an index, at the extended reals.

  The body sees the whole sampled cloud of its batch (a block `[1, 4096, 4]`) and one tile of 256 raw points (a block
  `[1, 256, 4]`). From them it forms the `256 × 4096` table of distances
    √ max ((|r|² + |a|²) − 2 (r·a)) 0,
  the squares and the inner product over the first three coordinates; its column minima (nearest raw point of the tile,
  per sampled point), the sum of its row minima (nearest sampled point, per raw point of the tile), and, at the last tile,
  the loss from the two accumulators. A change of float format is the identity here, and a matrix product into a zero
  accumulator is the plain sum of products.
-/
import proofs.«140951_j70480413328151_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«140951_j70480413328151_1_alg».proof.Proof.ChamferSpec

noncomputable section

namespace Cert.KernelIdeal.Tile

open Idealize.ShloMosaic Idealize.ShloMosaic.ValueIdx Cert.KernelIdeal Cert.KernelIdeal.Gen
open Cert.KernelIdeal.Facts₀

/-! ## Layout operations the library does not read: a vector as a column, a column along its rows -/

section Layout
variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its rows to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array cast to `[1, 1, 1]` reads the one entry. -/
theorem shapeCast_11_111_apply (x : (⟨2, ![1, 1]⟩ : Shape).Idx → α) (h : (⟨2, ![1, 1]⟩ : Shape).ShapeCasts ⟨3, ![1, 1, 1]⟩)
    (j : (⟨3, ![1, 1, 1]⟩ : Shape).Idx) : shapeCast ⟨3, ![1, 1, 1]⟩ x h j = x (ix2 (0 : Fin 1) (0 : Fin 1)) :=
  shapeCast_apply x h _ _ (by
    have h0 : (j 0).val = 0 := by have : (j 0).val < 1 := (j 0).isLt; omega
    have h1 : (j 1).val = 0 := by have : (j 1).val < 1 := (j 1).isLt; omega
    have h2 : (j 2).val = 0 := by have : (j 2).val < 1 := (j 2).isLt; omega
    rw [Shape.rowMajor_val_two, Shape.rowMajor_val_three]
    show 0 * 1 + 0 = ((j 0).val * 1 + (j 1).val) * 1 + (j 2).val
    rw [h0, h1, h2])

/-- A `[1, 1, 1]` array broadcast to `[1, a, b]` reads the one entry everywhere. -/
theorem broadcastTo_111_1ab_apply {a b : ℕ} (v : (⟨3, ![1, 1, 1]⟩ : Shape).Idx → α)
    (h : (⟨3, ![1, 1, 1]⟩ : Shape).Broadcasts ⟨3, ![1, a, b]⟩) (j : (⟨3, ![1, a, b]⟩ : Shape).Idx) :
    broadcastTo ⟨3, ![1, a, b]⟩ v h j = v (ix3 (0 : Fin 1) (0 : Fin 1) (0 : Fin 1)) := by
  refine broadcastTo_apply v h j (ix3 (0 : Fin 1) (0 : Fin 1) (0 : Fin 1)) fun ax => ?_
  match ax with
  | ⟨0, _⟩ => rfl
  | ⟨1, _⟩ => rfl
  | ⟨2, _⟩ => rfl

end Layout

/-! ## Reductions of a matrix along one axis, at the extended reals -/

/-- A sum along the rows of an `[n, d]` matrix: at `i`, the sum of row `i`. -/
theorem rowSum_apply {n d : ℕ} (v : FVec Ideal ⟨2, ![n, d]⟩ .f32) (acc : BitVec 32) (h : (⟨2, ![n, d]⟩ : Shape).Reduces [1] ⟨1, ![n]⟩)
    (hφ : FKind.Formats .f32) (hacc : acc = FKind.add.neutral .f32 hφ) (i : Fin n) :
    multiReduction .add [1] ⟨1, ![n]⟩ v acc h hφ hacc (ix1 i) = ∑ k : Fin d, v (ix2 i k) :=
  (Ideal.multiReduction_add_single v acc h hφ hacc (ix1 i)).trans
    (Finset.sum_congr rfl fun k _ => congrArg v (funext fun a => Fin.ext (by match a with | ⟨0, _⟩ => rfl | ⟨1, _⟩ => rfl)))

/-- A sum down the columns of an `[n, d]` matrix: at `c`, the sum of column `c`. -/
theorem colSum_apply {n d : ℕ} (v : FVec Ideal ⟨2, ![n, d]⟩ .f32) (acc : BitVec 32) (h : (⟨2, ![n, d]⟩ : Shape).Reduces [0] ⟨1, ![d]⟩)
    (hφ : FKind.Formats .f32) (hacc : acc = FKind.add.neutral .f32 hφ) (c : Fin d) :
    multiReduction .add [0] ⟨1, ![d]⟩ v acc h hφ hacc (ix1 c) = ∑ r : Fin n, v (ix2 r c) :=
  (Ideal.multiReduction_add_single v acc h hφ hacc (ix1 c)).trans
    (Finset.sum_congr rfl fun k _ => congrArg v (funext fun a => Fin.ext (by match a with | ⟨0, _⟩ => rfl | ⟨1, _⟩ => rfl)))

/-- A minimum over ONE axis, as the fold of `min` from the accumulator's value over that axis's coordinates. -/
theorem minimumf_single {s t : Shape} {a : Fin s.rank} (src : FVec Ideal s .f32) (acc : BitVec 32)
    (h : s.Reduces [a] t) (hφ : FKind.Formats .f32) (hacc : acc = FKind.minimumf.neutral .f32 hφ) (j : t.Idx) :
    multiReduction .minimumf [a] t src acc h hφ hacc j
      = (Finset.univ : Finset (Fin (s.size a))).fold min (Ideal.ofBits .f32 acc) (src ∘ h.lift j) := by
  rw [multiReduction_minimumf_eq_fold]; exact h.fold_filter_drop_single _ _ src j

/-- A minimum along the rows of an `[n, d]` matrix: at `i`, the minimum of row `i` (and of the accumulator's value). -/
theorem rowMin_apply {n d : ℕ} (v : FVec Ideal ⟨2, ![n, d]⟩ .f32) (acc : BitVec 32) (h : (⟨2, ![n, d]⟩ : Shape).Reduces [1] ⟨1, ![n]⟩)
    (hφ : FKind.Formats .f32) (hacc : acc = FKind.minimumf.neutral .f32 hφ) (i : Fin n) :
    multiReduction .minimumf [1] ⟨1, ![n]⟩ v acc h hφ hacc (ix1 i)
      = Finset.univ.fold min (Ideal.ofBits .f32 acc) (fun k : Fin d => v (ix2 i k)) :=
  (minimumf_single v acc h hφ hacc (ix1 i)).trans
    (congrArg (fun f => (Finset.univ : Finset (Fin d)).fold min (Ideal.ofBits .f32 acc) f)
      (funext fun k => congrArg v (funext fun a => Fin.ext (by match a with | ⟨0, _⟩ => rfl | ⟨1, _⟩ => rfl))))

/-- A minimum down the columns of an `[n, d]` matrix: at `c`, the minimum of column `c` (and of the accumulator's value). -/
theorem colMin_apply {n d : ℕ} (v : FVec Ideal ⟨2, ![n, d]⟩ .f32) (acc : BitVec 32) (h : (⟨2, ![n, d]⟩ : Shape).Reduces [0] ⟨1, ![d]⟩)
    (hφ : FKind.Formats .f32) (hacc : acc = FKind.minimumf.neutral .f32 hφ) (c : Fin d) :
    multiReduction .minimumf [0] ⟨1, ![d]⟩ v acc h hφ hacc (ix1 c)
      = Finset.univ.fold min (Ideal.ofBits .f32 acc) (fun r : Fin n => v (ix2 r c)) :=
  (minimumf_single v acc h hφ hacc (ix1 c)).trans
    (congrArg (fun f => (Finset.univ : Finset (Fin n)).fold min (Ideal.ofBits .f32 acc) f)
      (funext fun k => congrArg v (funext fun a => Fin.ext (by match a with | ⟨0, _⟩ => rfl | ⟨1, _⟩ => rfl))))

/-- A maximum along the rows of an `[n, d]` matrix: at `i`, the maximum of row `i` (and of the accumulator's value). -/
theorem rowMax_apply {n d : ℕ} (v : FVec Ideal ⟨2, ![n, d]⟩ .f32) (acc : BitVec 32) (h : (⟨2, ![n, d]⟩ : Shape).Reduces [1] ⟨1, ![n]⟩)
    (hφ : FKind.Formats .f32) (hacc : acc = FKind.maximumf.neutral .f32 hφ) (i : Fin n) :
    multiReduction .maximumf [1] ⟨1, ![n]⟩ v acc h hφ hacc (ix1 i)
      = Finset.univ.fold max (Ideal.ofBits .f32 acc) (fun k : Fin d => v (ix2 i k)) :=
  (Ideal.multiReduction_maximumf_single v acc h hφ hacc (ix1 i)).trans
    (congrArg (fun f => (Finset.univ : Finset (Fin d)).fold max (Ideal.ofBits .f32 acc) f)
      (funext fun k => congrArg v (funext fun a => Fin.ext (by match a with | ⟨0, _⟩ => rfl | ⟨1, _⟩ => rfl))))

/-! ## The matrix product of the tile: raw rows against sampled rows, over the three coordinates -/

/-- The product's dimension record, by a short name. -/
abbrev tileDot := dot_S256x3_S4096x3_S256x4096_1_1_0_0_n_n

theorem lhs_tileDot_0 (i : S256x4096.Idx) (q : dot_S256x3_S4096x3_S256x4096_1_1_0_0_n_n.contr.Idx) :
    (dot_S256x3_S4096x3_S256x4096_1_1_0_0_n_n.lhsIdx i q 0).val = (i 0).val := by
  unfold DotDims.lhsIdx
  rw [dif_neg (show ¬(0 : Fin S256x3.rank) ∈ dot_S256x3_S4096x3_S256x4096_1_1_0_0_n_n.lhsBatch by decide), dif_pos (show (0 : Fin S256x3.rank) ∈ dot_S256x3_S4096x3_S256x4096_1_1_0_0_n_n.lhsNonContracting by decide)]
  rfl
theorem lhs_tileDot_1 (i : S256x4096.Idx) (q : dot_S256x3_S4096x3_S256x4096_1_1_0_0_n_n.contr.Idx) :
    (dot_S256x3_S4096x3_S256x4096_1_1_0_0_n_n.lhsIdx i q 1).val = (q ⟨0, by decide⟩).val :=
  dot_S256x3_S4096x3_S256x4096_1_1_0_0_n_n.lhsIdx_val_of_single rfl i q
theorem rhs_tileDot_0 (i : S256x4096.Idx) (q : dot_S256x3_S4096x3_S256x4096_1_1_0_0_n_n.contr.Idx) :
    (dot_S256x3_S4096x3_S256x4096_1_1_0_0_n_n.rhsIdx i q 0).val = (i 1).val := by
  unfold DotDims.rhsIdx
  rw [dif_neg (show ¬(0 : Fin S4096x3.rank) ∈ dot_S256x3_S4096x3_S256x4096_1_1_0_0_n_n.rhsBatch by decide), dif_pos (show (0 : Fin S4096x3.rank) ∈ dot_S256x3_S4096x3_S256x4096_1_1_0_0_n_n.rhsNonContracting by decide)]
  rfl
theorem rhs_tileDot_1 (i : S256x4096.Idx) (q : dot_S256x3_S4096x3_S256x4096_1_1_0_0_n_n.contr.Idx) :
    (dot_S256x3_S4096x3_S256x4096_1_1_0_0_n_n.rhsIdx i q 1).val = (q ⟨0, by decide⟩).val :=
  dot_S256x3_S4096x3_S256x4096_1_1_0_0_n_n.rhsIdx_val_of_single rfl i q

/-- Into the zero accumulator the product at `(jj, i)` is the sum over the three coordinates of raw row `jj` times
    sampled row `i`. -/
theorem tileInner_apply (l : FVec Ideal S256x3 .bf16) (r : FVec Ideal S4096x3 .bf16) (jj : Fin 256) (i : Fin 4096) :
    matmul dot_S256x3_S4096x3_S256x4096_1_1_0_0_n_n none l r (constant S256x4096 .f32 0x00000000#32) (ix2 jj i)
      = ∑ k : Fin 3, l (ix2 jj k) * r (ix2 i k) := by
  simp only [matmul]
  rw [Ideal.matmul_constant_zero_apply, ← Equiv.sum_comp (ValueIdx.contrEquiv1 dot_S256x3_S4096x3_S256x4096_1_1_0_0_n_n 3 rfl rfl).symm]
  refine Finset.sum_congr rfl fun k _ => ?_
  have hk := ValueIdx.contrEquiv1_symm_val dot_S256x3_S4096x3_S256x4096_1_1_0_0_n_n 3 rfl rfl k
  have el : dot_S256x3_S4096x3_S256x4096_1_1_0_0_n_n.lhsIdx (ix2 jj i) ((ValueIdx.contrEquiv1 dot_S256x3_S4096x3_S256x4096_1_1_0_0_n_n 3 rfl rfl).symm k) = ix2 jj k := funext fun a => Fin.ext (by
    match a with
    | ⟨0, _⟩ => exact lhs_tileDot_0 _ _
    | ⟨1, _⟩ => exact (lhs_tileDot_1 _ _).trans hk)
  have er : dot_S256x3_S4096x3_S256x4096_1_1_0_0_n_n.rhsIdx (ix2 jj i) ((ValueIdx.contrEquiv1 dot_S256x3_S4096x3_S256x4096_1_1_0_0_n_n 3 rfl rfl).symm k) = ix2 i k := funext fun a => Fin.ext (by
    match a with
    | ⟨0, _⟩ => exact rhs_tileDot_0 _ _
    | ⟨1, _⟩ => exact (rhs_tileDot_1 _ _).trans hk)
  rw [el, er]

/-! ## The table of distances of one tile -/

open Cert.Chamfer (c4 wTwo wZero wInf wNegInf wFive wRawCount wSampledCount)

/-- The combine, clamp and root of the table, read at `(jj, i)`: the raw column at `jj`, the sampled row at `i`. -/
theorem distForm (v14 : FVec Ideal S256x1 .f32) (v15 : FVec Ideal S1x4096 .f32) (v18 : FVec Ideal S256x4096 .f32)
    (jj : Fin 256) (i : Fin 4096) :
    sqrt (maximumf (subf (addf (broadcastTo S256x4096 v14 Facts₀.broadcasts_S256x1_S256x4096) (broadcastTo S256x4096 v15 Facts₀.broadcasts_S1x4096_S256x4096))
        (mulf (broadcast S256x4096 (Scalar.ofBits (F := Ideal) .f32 0x40000000#32)) v18)) (broadcast S256x4096 (Scalar.ofBits (F := Ideal) .f32 0x00000000#32))) (ix2 jj i)
      = Ideal.sqrt (max ((v14 (ix2 jj (0 : Fin 1)) + v15 (ix2 (0 : Fin 1) i)) - wTwo * v18 (ix2 jj i)) wZero) := by
  show Ideal.sqrt (max ((broadcastTo S256x4096 v14 Facts₀.broadcasts_S256x1_S256x4096 (ix2 jj i) + broadcastTo S256x4096 v15 Facts₀.broadcasts_S1x4096_S256x4096 (ix2 jj i)) - wTwo * v18 (ix2 jj i)) wZero) = _
  rw [broadcastTo_a1_ab_apply, broadcastTo_1b_ab_apply]

/-- The distance between raw point `jj` of the tile and sampled point `i`, from the two blocks. -/
theorem dist_apply (x0 : Vec Ideal S1x4096x4 .f32) (x1 : Vec Ideal S1x256x4 .f32) (jj : Fin 256) (i : Fin 4096) :
    k0_pay6 (F := Ideal) x0 x1 (ix2 jj i)
      = Ideal.sqrt (max (((∑ k : Fin 3, x1 (ix3 (0 : Fin 1) jj (c4 k)) * x1 (ix3 (0 : Fin 1) jj (c4 k)))
            + ∑ k : Fin 3, x0 (ix3 (0 : Fin 1) i (c4 k)) * x0 (ix3 (0 : Fin 1) i (c4 k)))
          - wTwo * ∑ k : Fin 3, x1 (ix3 (0 : Fin 1) jj (c4 k)) * x0 (ix3 (0 : Fin 1) i (c4 k))) wZero) := by
  unfold k0_pay6
  refine (distForm _ _ _ jj i).trans ?_
  have e1 : ∀ k : Fin 3, extractStridedSlice S256x3 ![0, 0] (shapeCast S256x4 x1 Facts₀.shapeCasts_S1x256x4_S256x4) Facts₀.slices_S256x4_o0_0_S256x3 (ix2 jj k) = x1 (ix3 (0 : Fin 1) jj (c4 k)) := fun k =>
    (slice2_axis1_apply 0 _ _ jj k (c4 k) (by show k.val = 0 + k.val; omega)).trans (shapeCast_1ab_ab_apply x1 _ jj (c4 k))
  have e0 : ∀ k : Fin 3, extractStridedSlice S4096x3 ![0, 0] (shapeCast S4096x4 x0 Facts₀.shapeCasts_S1x4096x4_S4096x4) Facts₀.slices_S4096x4_o0_0_S4096x3 (ix2 i k) = x0 (ix3 (0 : Fin 1) i (c4 k)) := fun k =>
    (slice2_axis1_apply 0 _ _ i k (c4 k) (by show k.val = 0 + k.val; omega)).trans (shapeCast_1ab_ab_apply x0 _ i (c4 k))
  refine congrArg Ideal.sqrt (congrArg (max · wZero) (congrArg₂ (· - ·) (congrArg₂ (· + ·) ?_ ?_) (congrArg (wTwo * ·) ?_)))
  · refine (shapeCast_a_a1_apply _ _ jj 0).trans ((rowSum_apply _ _ _ _ _ jj).trans (Finset.sum_congr rfl fun k _ => ?_))
    exact congrArg₂ (· * ·) (e1 k) (e1 k)
  · refine (transpose_ix2_apply _ _ 0 i).trans ((shapeCast_a_a1_apply _ _ i 0).trans ((rowSum_apply _ _ _ _ _ i).trans (Finset.sum_congr rfl fun k _ => ?_)))
    exact congrArg₂ (· * ·) (e0 k) (e0 k)
  · refine (tileInner_apply _ _ jj i).trans (Finset.sum_congr rfl fun k _ => ?_)
    exact congrArg₂ (· * ·) (e1 k) (e0 k)

/-- Per sampled point, the nearest raw point of the tile. -/
theorem tileColMin_apply (x0 : Vec Ideal S1x4096x4 .f32) (x1 : Vec Ideal S1x256x4 .f32) (u : Fin 1) (i : Fin 4096) :
    k0_pay7 (F := Ideal) x0 x1 (ix2 u i)
      = Finset.univ.fold min wInf (fun jj : Fin 256 => k0_pay6 (F := Ideal) x0 x1 (ix2 jj i)) := by
  unfold k0_pay7
  exact (shapeCast_a_1a_apply _ _ u i).trans (colMin_apply _ _ _ _ _ i)

/-- The running sum after the tile: what it was, plus, over the tile's raw points, the nearest sampled point. -/
theorem tileSum_apply (x0 : Vec Ideal S1x4096x4 .f32) (x1 : Vec Ideal S1x256x4 .f32) (v34 : Vec Ideal S1x1 .f32) (u u' : Fin 1) :
    k0_pay8 (F := Ideal) x0 x1 v34 (ix2 u u')
      = v34 (ix2 u u') + ∑ jj : Fin 256, Finset.univ.fold min wInf (fun i : Fin 4096 => k0_pay6 (F := Ideal) x0 x1 (ix2 jj i)) := by
  unfold k0_pay8
  refine congrArg (v34 (ix2 u u') + ·) ?_
  refine (shapeCast_a_1a_apply _ _ u u').trans ((colSum_apply _ _ _ _ _ u').trans (Finset.sum_congr rfl fun jj _ => ?_))
  exact (shapeCast_a_a1_apply _ _ jj u').trans (rowMin_apply _ _ _ _ _ jj)

/-- The loss written at the last tile, from the running sum and the running minima, the same at every entry of the block. -/
theorem lossBlock_apply (v47 : Vec Ideal S1x1 .f32) (v50 v55 : Vec Ideal S1x4096 .f32) (j : S1x8x128.Idx) :
    k0_pay3 (F := Ideal) v47 v50 v55 j
      = (wFive * Ideal.div (v47 (ix2 (0 : Fin 1) (0 : Fin 1))) wRawCount
            + Ideal.div (∑ i : Fin 4096, v50 (ix2 (0 : Fin 1) i)) wSampledCount)
          + Finset.univ.fold max wNegInf (fun i : Fin 4096 => v55 (ix2 (0 : Fin 1) i)) := by
  unfold k0_pay3
  refine (broadcastTo_111_1ab_apply _ _ j).trans ((shapeCast_11_111_apply _ _ _).trans ?_)
  refine congrArg₂ (· + ·) (congrArg₂ (· + ·) rfl (congrArg (Ideal.div · wSampledCount) ?_)) ?_
  · exact (shapeCast_a_1a_apply _ _ 0 0).trans (rowSum_apply _ _ _ _ _ 0)
  · exact (shapeCast_a_1a_apply _ _ 0 0).trans (rowMax_apply _ _ _ _ _ 0)

/-- The stores that only re-lay a value: the new running sum is stored as it is, -/
theorem keep_apply (v35 : FVec Ideal S1x1 .f32) : k0_pay1 (F := Ideal) v35 = v35 := by
  unfold k0_pay1; exact shapeCast_self _ _

/-- the new running minima are the old ones against the tile's, -/
theorem minUpdate_apply (v33 : FVec Ideal S1x4096 .f32) (v39 : Vec Ideal S1x4096 .f32) (j : S1x4096.Idx) :
    k0_pay2 (F := Ideal) v33 v39 j = min (v39 j) (v33 j) := by
  unfold k0_pay2; exact congrFun (shapeCast_self _ _) j

/-- the minima start from the word of +∞, -/
theorem minInit_apply (j : S1x4096.Idx) : k0_pay4 (F := Ideal) j = wInf := by
  unfold k0_pay4; exact congrFun (shapeCast_self _ _) j

/-- and the sum from the word of zero. -/
theorem sumInit_apply (j : S1x1.Idx) : k0_pay5 (F := Ideal) j = wZero := by
  unfold k0_pay5; exact congrFun (shapeCast_self _ _) j

end Cert.KernelIdeal.Tile

end
-- ==== Proof.ChamferTiles.lean ====
/-
  A minimum and a sum over 16384 = 64 · 256 raw points, taken tile by tile.

  The running minimum is carried by its universal property: `v` is "the minimum of `init` and of `f j` for
  `j < n`" when `c ≤ v ↔ c ≤ init ∧ ∀ j < n, c ≤ f j` for every `c`. Taking the minimum with one more tile of 256
  moves `n` by 256; at `n = 16384` the value is the minimum over all `j` (two values with the same lower bounds are
  equal). Only the order is used: no infinity is evaluated, and `init` may be any value.

  The running sum is the sum over the initial segment `j < n` of the natural numbers (the function padded with
  zeros beyond 16384), which splits at a tile boundary because addition on the extended reals is commutative and
  associative.
-/
import Mathlib.Data.EReal.Basic
import Mathlib.Algebra.BigOperators.Fin
import Mathlib.Algebra.BigOperators.Intervals
import Mathlib.Data.Finset.Fold

noncomputable section

namespace Cert.Chamfer

/-- A lower bound of a minimum folded from `init` over a whole finite type bounds `init` and every entry. -/
theorem le_foldMin_iff {ι : Type*} [Fintype ι] (init : EReal) (f : ι → EReal) (c : EReal) :
    c ≤ Finset.univ.fold min init f ↔ c ≤ init ∧ ∀ k, c ≤ f k := by
  rw [Finset.le_fold_min]
  exact and_congr Iff.rfl ⟨fun h k => h k (Finset.mem_univ k), fun h k _ => h k⟩

/-- An upper bound of a maximum folded from `init` over a whole finite type bounds `init` and every entry. -/
theorem foldMax_le_iff {ι : Type*} [Fintype ι] (init : EReal) (f : ι → EReal) (c : EReal) :
    Finset.univ.fold max init f ≤ c ↔ init ≤ c ∧ ∀ k, f k ≤ c := by
  rw [Finset.fold_max_le]
  exact and_congr Iff.rfl ⟨fun h k => h k (Finset.mem_univ k), fun h k _ => h k⟩

/-- `v` is the minimum of `init` and the entries `f j`, `j < n`. -/
def MinUpTo (init : EReal) (f : Fin 16384 → EReal) (n : ℕ) (v : EReal) : Prop :=
  ∀ c : EReal, c ≤ v ↔ c ≤ init ∧ ∀ j : Fin 16384, j.val < n → c ≤ f j

theorem minUpTo_zero (init : EReal) (f : Fin 16384 → EReal) : MinUpTo init f 0 init :=
  fun _ => ⟨fun h => ⟨h, fun j hj => absurd hj (Nat.not_lt_zero _)⟩, fun h => h.1⟩

/-- The raw point `jj` of tile `n`. -/
def tileAt (n : ℕ) (hn : n < 64) (jj : Fin 256) : Fin 16384 := ⟨n * 256 + jj.val, by have := jj.isLt; omega⟩

/-- One more tile: the minimum with the tile's own minimum (folded from the same `init`). -/
theorem minUpTo_step {init : EReal} {f : Fin 16384 → EReal} {n : ℕ} (hn : n < 64) {v : EReal}
    (h : MinUpTo init f (n * 256) v) :
    MinUpTo init f ((n + 1) * 256) (min v (Finset.univ.fold min init (fun jj : Fin 256 => f (tileAt n hn jj)))) := by
  intro c
  rw [le_min_iff, h c, le_foldMin_iff]
  constructor
  · rintro ⟨⟨h0, h1⟩, -, h2⟩
    refine ⟨h0, fun j hj => ?_⟩
    by_cases hlt : j.val < n * 256
    · exact h1 j hlt
    · have hjj : j.val - n * 256 < 256 := by omega
      have := h2 ⟨j.val - n * 256, hjj⟩
      have e : tileAt n hn ⟨j.val - n * 256, hjj⟩ = j := Fin.ext (by show n * 256 + (j.val - n * 256) = j.val; omega)
      rwa [e] at this
  · rintro ⟨h0, h1⟩
    exact ⟨⟨h0, fun j hj => h1 j (by omega)⟩, h0, fun jj => h1 _ (by show n * 256 + jj.val < (n + 1) * 256; have := jj.isLt; omega)⟩

/-- After all 64 tiles the value is the minimum over every raw point. -/
theorem minUpTo_full {init : EReal} {f : Fin 16384 → EReal} {v : EReal} (h : MinUpTo init f 16384 v) :
    v = Finset.univ.fold min init f :=
  eq_of_forall_le_iff fun c => by
    rw [h c, le_foldMin_iff]
    exact and_congr Iff.rfl ⟨fun hh j => hh j j.isLt, fun hh j _ => hh j⟩

/-- `g` on the natural numbers, zero beyond the 16384 raw points. -/
def padded (g : Fin 16384 → EReal) (j : ℕ) : EReal := if h : j < 16384 then g ⟨j, h⟩ else 0

/-- The sum of `g` over the raw points `j < n`. -/
def sumUpTo (g : Fin 16384 → EReal) (n : ℕ) : EReal := ∑ j ∈ Finset.range n, padded g j

theorem sumUpTo_zero (g : Fin 16384 → EReal) : sumUpTo g 0 = 0 := Finset.sum_range_zero _

/-- One more tile: its 256 entries are added. -/
theorem sumUpTo_step (g : Fin 16384 → EReal) {n : ℕ} (hn : n < 64) :
    sumUpTo g ((n + 1) * 256) = sumUpTo g (n * 256) + ∑ jj : Fin 256, g (tileAt n hn jj) := by
  unfold sumUpTo
  rw [show (n + 1) * 256 = n * 256 + 256 by ring, Finset.sum_range_add]
  congr 1
  rw [Finset.sum_range]
  refine Finset.sum_congr rfl fun jj _ => ?_
  unfold padded
  rw [dif_pos (by have := jj.isLt; omega)]
  rfl

/-- After all 64 tiles the sum is over every raw point. -/
theorem sumUpTo_full (g : Fin 16384 → EReal) : sumUpTo g 16384 = ∑ j : Fin 16384, g j := by
  unfold sumUpTo
  rw [Finset.sum_range]
  refine Finset.sum_congr rfl fun j _ => ?_
  unfold padded
  rw [dif_pos j.isLt]

end Cert.Chamfer

end
-- ==== Proof.KernelStep.lean ====
/-
  One tile of the sweep over the raw points.

  Let the body's sampled block be batch `b` of the sampled cloud and its raw block be tile `k` of batch `b` of the raw
  cloud (raw points `k·256 … k·256 + 255`). Then the body's table entry at `(jj, i)` is the distance between sampled point
  `i` and raw point `k·256 + jj` — the kernel adds the two squares and multiplies the two coordinates in the other order,
  which addition and multiplication on the extended reals do not see. So one run of the body moves the running minima
  (per sampled point, the nearest raw point so far) and the running sum (over raw points so far, of the nearest sampled
  point) from the first `k·256` raw points to the first `(k+1)·256`; and after the last tile the loss the body writes is
  the specification's loss of the batch.
-/
import proofs.«140951_j70480413328151_1_alg».proof.Proof.KernelTile
import proofs.«140951_j70480413328151_1_alg».proof.Proof.ChamferTiles

noncomputable section

namespace Cert.KernelIdeal.Step

open Idealize.ShloMosaic Idealize.ShloMosaic.ValueIdx Cert.KernelIdeal Cert.KernelIdeal.Gen Cert.KernelIdeal.Tile Cert.Chamfer

variable (X : Vec Ideal S2x4096x4 .f32) (Y : Vec Ideal S2x16384x4 .f32)
variable (xb : Vec Ideal S1x4096x4 .f32) (yb : Vec Ideal S1x256x4 .f32)
variable (b : Fin 2) (k : ℕ) (hk : k < 64)

/-- The table entry at `(jj, i)` is the distance between sampled point `i` and raw point `jj` of tile `k`. -/
theorem tileDist_eq (hx : ∀ (i : Fin 4096) (e : Fin 4), xb (ix3 (0 : Fin 1) i e) = X (ix3 b i e))
    (hy : ∀ (jj : Fin 256) (e : Fin 4), yb (ix3 (0 : Fin 1) jj e) = Y (ix3 b (tileAt k hk jj) e))
    (jj : Fin 256) (i : Fin 4096) :
    k0_pay6 (F := Ideal) xb yb (ix2 jj i) = pointDist X Y b i (tileAt k hk jj) := by
  refine (dist_apply xb yb jj i).trans ?_
  unfold pointDist sampledSq rawSq crossTerm
  refine congrArg Ideal.sqrt (congrArg (max · wZero) (congrArg₂ (· - ·) ?_ (congrArg (wTwo * ·) (Finset.sum_congr rfl fun e _ => ?_))))
  · refine (add_comm _ _).trans (congrArg₂ (· + ·) (Finset.sum_congr rfl fun e _ => ?_) (Finset.sum_congr rfl fun e _ => ?_))
    · rw [hx]
    · rw [hy]
  · rw [hx, hy, mul_comm]

/-- The running minima after the tile. -/
theorem stepMin (hx : ∀ (i : Fin 4096) (e : Fin 4), xb (ix3 (0 : Fin 1) i e) = X (ix3 b i e))
    (hy : ∀ (jj : Fin 256) (e : Fin 4), yb (ix3 (0 : Fin 1) jj e) = Y (ix3 b (tileAt k hk jj) e))
    (prev : Vec Ideal S1x4096 .f32) (i : Fin 4096)
    (hprev : MinUpTo wInf (fun j => pointDist X Y b i j) (k * 256) (prev (ix2 (0 : Fin 1) i))) :
    MinUpTo wInf (fun j => pointDist X Y b i j) ((k + 1) * 256) (k0_pay2 (F := Ideal) (k0_pay7 xb yb) prev (ix2 (0 : Fin 1) i)) := by
  rw [minUpdate_apply, tileColMin_apply]
  have e : (fun jj : Fin 256 => k0_pay6 (F := Ideal) xb yb (ix2 jj i)) = fun jj => pointDist X Y b i (tileAt k hk jj) :=
    funext fun jj => tileDist_eq X Y xb yb b k hk hx hy jj i
  rw [e]
  exact minUpTo_step hk hprev

/-- The running sum after the tile. -/
theorem stepSum (hx : ∀ (i : Fin 4096) (e : Fin 4), xb (ix3 (0 : Fin 1) i e) = X (ix3 b i e))
    (hy : ∀ (jj : Fin 256) (e : Fin 4), yb (ix3 (0 : Fin 1) jj e) = Y (ix3 b (tileAt k hk jj) e))
    (prev : Vec Ideal S1x1 .f32)
    (hprev : prev (ix2 (0 : Fin 1) (0 : Fin 1)) = sumUpTo (fun j => nearestSampled X Y b j) (k * 256)) :
    k0_pay1 (F := Ideal) (k0_pay8 xb yb prev) (ix2 (0 : Fin 1) (0 : Fin 1))
      = sumUpTo (fun j => nearestSampled X Y b j) ((k + 1) * 256) := by
  rw [keep_apply, tileSum_apply, hprev, sumUpTo_step _ hk]
  refine congrArg (_ + ·) (Finset.sum_congr rfl fun jj _ => ?_)
  show _ = nearestSampled X Y b (tileAt k hk jj)
  unfold nearestSampled
  exact congrArg (fun f => (Finset.univ : Finset (Fin 4096)).fold min wInf f)
    (funext fun i => tileDist_eq X Y xb yb b k hk hx hy jj i)

/-- After the last tile the block the body writes holds the loss of the batch, at every entry. -/
theorem lastLoss (hk63 : k = 63) (hx : ∀ (i : Fin 4096) (e : Fin 4), xb (ix3 (0 : Fin 1) i e) = X (ix3 b i e))
    (hy : ∀ (jj : Fin 256) (e : Fin 4), yb (ix3 (0 : Fin 1) jj e) = Y (ix3 b (tileAt k hk jj) e))
    (prev0 : Vec Ideal S1x4096 .f32) (prev1 : Vec Ideal S1x1 .f32)
    (hprev0 : ∀ i : Fin 4096, MinUpTo wInf (fun j => pointDist X Y b i j) (k * 256) (prev0 (ix2 (0 : Fin 1) i)))
    (hprev1 : prev1 (ix2 (0 : Fin 1) (0 : Fin 1)) = sumUpTo (fun j => nearestSampled X Y b j) (k * 256))
    (j : S1x8x128.Idx) :
    k0_pay3 (F := Ideal) (k0_pay1 (k0_pay8 xb yb prev1)) (k0_pay2 (k0_pay7 xb yb) prev0) (k0_pay2 (k0_pay7 xb yb) prev0) j
      = loss X Y b := by
  have hS := stepSum X Y xb yb b k hk hx hy prev1 hprev1
  have hM : ∀ i : Fin 4096, k0_pay2 (F := Ideal) (k0_pay7 xb yb) prev0 (ix2 (0 : Fin 1) i) = nearestRaw X Y b i := fun i => by
    have h := stepMin X Y xb yb b k hk hx hy prev0 i (hprev0 i)
    subst hk63
    exact minUpTo_full h
  subst hk63
  rw [lossBlock_apply, hS, sumUpTo_full]
  unfold loss
  simp only [hM]

end Cert.KernelIdeal.Step

end
-- ==== Proof.KernelRun.lean ====
/-
  The kernel's run, read as a value.

  The grid has 2 · 64 points; point `t` works on batch `t / 64` and on raw tile `t % 64`. Its sampled block is the whole
  batch of the sampled cloud and its raw block is that tile of the raw cloud. By induction over the points of a batch the
  two scratch accumulators hold, after tile `k`, the minima and the sum over the first `(k + 1) · 256` raw points; so the
  last point of each batch writes that batch's loss into every entry of its output block. The two blocks written back
  (points 63 and 127) tile the output array, which therefore ends holding the loss of batch `b` throughout plane `b`. The
  host lines after the call take entry `(b, 0, 0)` of each plane, add the two from zero and halve.
-/
import proofs.«140951_j70480413328151_1_alg».proof.Proof.Gen.KernelIdeal.Frame
import proofs.«140951_j70480413328151_1_alg».proof.Proof.KernelPieces
import proofs.«140951_j70480413328151_1_alg».proof.Proof.KernelStep
import Idealize.ShloMosaic.Lib.StableHlo.Run

set_option maxRecDepth 16384

noncomputable section

namespace Cert.KernelIdeal.Run

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal Cert.KernelIdeal.Gen Cert.KernelIdeal.Pieces Cert.KernelIdeal.Step Cert.Chamfer

variable (m : (ℓ : Loc nD τ sig) → Buf (Elt Ideal) ℓ) (ρ : Dev nD → PrngReg)

/-! ## The arrays and the blocks, at their literal types -/

/-- The sampled cloud as the region finds it. -/
abbrev xarr (c : Dev nD) : Vec Ideal S2x4096x4 .f32 := V m c main_arg0
/-- The raw cloud as the region finds it. -/
abbrev yarr (c : Dev nD) : Vec Ideal S2x16384x4 .f32 := V m c main_arg1
/-- The sampled block of point `t`. -/
abbrev xblk (c : Dev nD) (t : Fin cfg0.N) : Vec Ideal S1x4096x4 .f32 := iblk m c 0 t
/-- The raw block of point `t`. -/
abbrev yblk (c : Dev nD) (t : Fin cfg0.N) : Vec Ideal S1x256x4 .f32 := iblk m c 1 t

/-- The printed index maps over the grid: batch `t / 64` for all three windows, raw tile `t % 64`. -/
theorem idx_facts : ∀ t : Fin cfg0.N,
    win0_0.index t (0 : Fin 3) = t.val / 64 ∧ win0_0.index t (1 : Fin 3) = 0 ∧ win0_0.index t (2 : Fin 3) = 0
    ∧ win0_1.index t (0 : Fin 3) = t.val / 64 ∧ win0_1.index t (1 : Fin 3) = t.val % 64 ∧ win0_1.index t (2 : Fin 3) = 0
    ∧ win0_2.index t (0 : Fin 3) = t.val / 64 ∧ win0_2.index t (1 : Fin 3) = 0 ∧ win0_2.index t (2 : Fin 3) = 0 :=
  (by decide +kernel : ∀ t : Fin grid0.N, _)

/-- The sampled block is batch `t / 64` of the sampled cloud. -/
theorem xblk_apply (c : Dev nD) (t : Fin cfg0.N) (b : Fin 2) (hb : b.val = t.val / 64) (i : Fin 4096) (e : Fin 4) :
    xblk m c t (ix3 (0 : Fin 1) i e) = xarr m c (ix3 b i e) := by
  obtain ⟨e0, e1, e2, -⟩ := idx_facts t
  show V m c main_arg0 (((cfg0.win 0).blk t).view.emb (ix3 (0 : Fin 1) i e)) = V m c main_arg0 (ix3 b i e)
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 4096 + 1 * i.val = i.val; omega
  | ⟨2, _⟩ => show win0_0.index t (2 : Fin 3) * 4 + 1 * e.val = e.val; omega

/-- The raw block is tile `t % 64` of batch `t / 64` of the raw cloud. -/
theorem yblk_apply (c : Dev nD) (t : Fin cfg0.N) (b : Fin 2) (hb : b.val = t.val / 64) (k : ℕ) (hk : k < 64) (hkt : k = t.val % 64)
    (jj : Fin 256) (e : Fin 4) :
    yblk m c t (ix3 (0 : Fin 1) jj e) = yarr m c (ix3 b (tileAt k hk jj) e) := by
  obtain ⟨-, -, -, e0, e1, e2, -⟩ := idx_facts t
  show V m c main_arg1 (((cfg0.win 1).blk t).view.emb (ix3 (0 : Fin 1) jj e)) = V m c main_arg1 (ix3 b (tileAt k hk jj) e)
  refine congrArg (V m c main_arg1) (funext fun a => Fin.ext ?_)
  match a with
  | ⟨0, _⟩ => show win0_1.index t (0 : Fin 3) * 1 + 1 * 0 = b.val; omega
  | ⟨1, _⟩ => show win0_1.index t (1 : Fin 3) * 256 + 1 * jj.val = k * 256 + jj.val; omega
  | ⟨2, _⟩ => show win0_1.index t (2 : Fin 3) * 4 + 1 * e.val = e.val; omega

/-! ## The accumulators after each point -/

/-- After point `n` (batch `b = n / 64`, tile `k = n % 64`) the carried minima and sum are those of the first
    `(k + 1) · 256` raw points of the batch. -/
theorem accumulators (c : Dev nD) : ∀ (n : ℕ) (hn : n < cfg0.N) (b : Fin 2) (k : ℕ), b.val = n / 64 → k = n % 64 →
    (∀ i : Fin 4096, MinUpTo wInf (fun j => pointDist (xarr m c) (yarr m c) b i j) ((k + 1) * 256)
        ((outsAt0 m c n hn).2.1 (ix2 (0 : Fin 1) i)))
    ∧ (outsAt0 m c n hn).2.2 (ix2 (0 : Fin 1) (0 : Fin 1))
        = sumUpTo (fun j => nearestSampled (xarr m c) (yarr m c) b j) ((k + 1) * 256) := by
  intro n
  induction n with
  | zero =>
    intro hn b k hb hk
    have hk0 : k = 0 := by omega
    subst hk0
    have h0 : (⟨0, hn⟩ : Fin cfg0.N).val % 64 = 0 := rfl
    have h1 : ¬(⟨0, hn⟩ : Fin cfg0.N).val % 64 = 63 := fun h => by have h' : 0 % 64 = 63 := h; omega
    have hx := xblk_apply m c ⟨0, hn⟩ b hb
    have hy := yblk_apply m c ⟨0, hn⟩ b hb 0 (by decide) rfl
    have e := outsAt0_A m c ⟨0, hn⟩ h0 h1
    rw [show outsAt0 m c 0 hn = outsAt0 m c (⟨0, hn⟩ : Fin cfg0.N).val (⟨0, hn⟩ : Fin cfg0.N).isLt from rfl, e]
    dsimp only
    rw [sout0_A_0_eq (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr h0) (fun h => h1 ((hcond0_1 ⟨0, hn⟩).mp h)) (iblk m c 0 ⟨0, hn⟩) (iblk m c 1 ⟨0, hn⟩),
      sout0_A_1_eq (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr h0) (fun h => h1 ((hcond0_1 ⟨0, hn⟩).mp h)) (iblk m c 0 ⟨0, hn⟩) (iblk m c 1 ⟨0, hn⟩)]
    refine ⟨fun i => ?_, ?_⟩
    · refine stepMin (xarr m c) (yarr m c) (xblk m c ⟨0, hn⟩) (yblk m c ⟨0, hn⟩) b 0 (by decide) hx hy (k0_pay4 (F := Ideal)) i ?_
      rw [Tile.minInit_apply, Nat.zero_mul]
      exact minUpTo_zero _ _
    · refine stepSum (xarr m c) (yarr m c) (xblk m c ⟨0, hn⟩) (yblk m c ⟨0, hn⟩) b 0 (by decide) hx hy (k0_pay5 (F := Ideal)) ?_
      rw [Tile.sumInit_apply, Nat.zero_mul, sumUpTo_zero]
      exact Ideal.ofBits_zero_f32
  | succ n ih =>
    intro hn b k hb hk
    have hN : n + 1 < 128 := lt_of_lt_of_eq hn (show cfg0.N = 128 from N_0)
    have hklt : k < 64 := by omega
    have hx := xblk_apply m c ⟨n + 1, hn⟩ b hb
    have hy := yblk_apply m c ⟨n + 1, hn⟩ b hb k hklt hk
    by_cases h0 : (⟨n + 1, hn⟩ : Fin cfg0.N).val % 64 = 0
    · have h1 : ¬(⟨n + 1, hn⟩ : Fin cfg0.N).val % 64 = 63 := by omega
      have hk0 : k = 0 := by have : (n + 1) % 64 = 0 := h0; omega
      subst hk0
      have e := outsAt0_A m c ⟨n + 1, hn⟩ h0 h1
      rw [show outsAt0 m c (n + 1) hn = outsAt0 m c (⟨n + 1, hn⟩ : Fin cfg0.N).val (⟨n + 1, hn⟩ : Fin cfg0.N).isLt from rfl, e]
      dsimp only
      rw [sout0_A_0_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩),
        sout0_A_1_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩)]
      refine ⟨fun i => ?_, ?_⟩
      · refine stepMin (xarr m c) (yarr m c) (xblk m c ⟨n + 1, hn⟩) (yblk m c ⟨n + 1, hn⟩) b 0 hklt hx hy (k0_pay4 (F := Ideal)) i ?_
        rw [Tile.minInit_apply, Nat.zero_mul]
        exact minUpTo_zero _ _
      · refine stepSum (xarr m c) (yarr m c) (xblk m c ⟨n + 1, hn⟩) (yblk m c ⟨n + 1, hn⟩) b 0 hklt hx hy (k0_pay5 (F := Ideal)) ?_
        rw [Tile.sumInit_apply, Nat.zero_mul, sumUpTo_zero]
        exact Ideal.ofBits_zero_f32
    · have hprev := ih (Nat.lt_of_succ_lt hn) b (k - 1) (by have : (n + 1) % 64 ≠ 0 := h0; omega) (by have : (n + 1) % 64 ≠ 0 := h0; omega)
      rw [show k - 1 + 1 = k by have : (n + 1) % 64 ≠ 0 := h0; omega] at hprev
      obtain ⟨hp0, hp1⟩ := hprev
      by_cases h1 : (⟨n + 1, hn⟩ : Fin cfg0.N).val % 64 = 63
      · have e := outsAt0_C m c ⟨n + 1, hn⟩ h0 h1
        rw [show outsAt0 m c (n + 1) hn = outsAt0 m c (⟨n + 1, hn⟩ : Fin cfg0.N).val (⟨n + 1, hn⟩ : Fin cfg0.N).isLt from rfl, e]
        dsimp only
        rw [sout0_C_0_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 m c (n + 1 - 1) (Nat.lt_of_le_of_lt (Nat.sub_le _ _) hn)).2.1 (outsAt0 m c (n + 1 - 1) (Nat.lt_of_le_of_lt (Nat.sub_le _ _) hn)).2.2,
          sout0_C_1_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 m c (n + 1 - 1) (Nat.lt_of_le_of_lt (Nat.sub_le _ _) hn)).2.1 (outsAt0 m c (n + 1 - 1) (Nat.lt_of_le_of_lt (Nat.sub_le _ _) hn)).2.2]
        exact ⟨fun i => stepMin (xarr m c) (yarr m c) (xblk m c ⟨n + 1, hn⟩) (yblk m c ⟨n + 1, hn⟩) b k hklt hx hy _ i (hp0 i),
          stepSum (xarr m c) (yarr m c) (xblk m c ⟨n + 1, hn⟩) (yblk m c ⟨n + 1, hn⟩) b k hklt hx hy _ hp1⟩
      · have e := outsAt0_B m c ⟨n + 1, hn⟩ h0 h1
        rw [show outsAt0 m c (n + 1) hn = outsAt0 m c (⟨n + 1, hn⟩ : Fin cfg0.N).val (⟨n + 1, hn⟩ : Fin cfg0.N).isLt from rfl, e]
        dsimp only
        rw [sout0_B_0_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 m c (n + 1 - 1) (Nat.lt_of_le_of_lt (Nat.sub_le _ _) hn)).2.1 (outsAt0 m c (n + 1 - 1) (Nat.lt_of_le_of_lt (Nat.sub_le _ _) hn)).2.2,
          sout0_B_1_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 m c (n + 1 - 1) (Nat.lt_of_le_of_lt (Nat.sub_le _ _) hn)).2.1 (outsAt0 m c (n + 1 - 1) (Nat.lt_of_le_of_lt (Nat.sub_le _ _) hn)).2.2]
        exact ⟨fun i => stepMin (xarr m c) (yarr m c) (xblk m c ⟨n + 1, hn⟩) (yblk m c ⟨n + 1, hn⟩) b k hklt hx hy _ i (hp0 i),
          stepSum (xarr m c) (yarr m c) (xblk m c ⟨n + 1, hn⟩) (yblk m c ⟨n + 1, hn⟩) b k hklt hx hy _ hp1⟩

/-! ## What the last point of a batch writes, and the output array -/

/-- The batch a point works on. -/
def batchOf (t : Fin cfg0.N) : Fin 2 :=
  ⟨t.val / 64, by have : t.val < 128 := lt_of_lt_of_eq t.isLt (show cfg0.N = 128 from N_0); omega⟩

/-- The last point of a batch leaves the batch's loss in every entry of its output block. -/
theorem outBlock (c : Dev nD) (t : Fin cfg0.N) (h1 : t.val % 64 = 63) (j : S1x8x128.Idx) :
    (outsAt0 m c t.val t.isLt).1 j = loss (xarr m c) (yarr m c) (batchOf t) := by
  have hN : t.val < 128 := lt_of_lt_of_eq t.isLt (show cfg0.N = 128 from N_0)
  have h0 : ¬t.val % 64 = 0 := by omega
  obtain ⟨hp0, hp1⟩ := accumulators m c (t.val - 1) (Nat.lt_of_le_of_lt (Nat.sub_le _ _) t.isLt) (batchOf t) 62
    (by show t.val / 64 = (t.val - 1) / 64; omega) (by omega)
  rw [outsAt0_C m c t h0 h1]
  dsimp only
  rw [out0_C_2_eq (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2]
  exact lastLoss (xarr m c) (yarr m c) (xblk m c t) (yblk m c t) (batchOf t) 63 (by decide) rfl
    (xblk_apply m c t (batchOf t) rfl) (yblk_apply m c t (batchOf t) rfl 63 (by decide) (by omega)) _ _ hp0 hp1 j

/-- The output array after the run: plane `b` holds the loss of batch `b`. -/
abbrev planes (c : Dev nD) : S2x8x128.Idx → EReal := fun idx => loss (xarr m c) (yarr m c) (idx 0)

/-- What a point that writes back (the last of a batch) writes: its block of `planes`. -/
theorem flushed_eq (c : Dev nD) (t : Fin cfg0.N) (hf : (cfg0.win 2).flush t = true) :
    (dats m 0 c).flushed 2 t = ((cfg0.win 2).blk t).view.read (Elt Ideal) (planes m c) := by
  have h1 : t.val % 64 = 63 := (flush0_2 t).mp hf
  obtain ⟨-, -, -, -, -, -, e0, e1, e2⟩ := idx_facts t
  show (cfg0.win 2).cut (grid0.coords t) ((dats m 0 c).after 2 t) = _
  rw [after0_2]
  funext y
  show (outsAt0 m c t.val t.isLt).1 y = loss (xarr m c) (yarr m c) ((((cfg0.win 2).blk t).view.emb y) 0)
  rw [outBlock m c t h1 y]
  refine congrArg (loss (xarr m c) (yarr m c)) (Fin.ext ?_)
  show t.val / 64 = win0_2.index t (0 : Fin 3) * 1 + 1 * (y 0).val
  have : (y 0).val < 1 := (y 0).isLt
  omega

/-- An index of the output array is in point `t`'s block iff each coordinate is in the block's range on its axis. -/
theorem mem_blk (t : Fin cfg0.N) (i : S2x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v0).slice (win0_2.rect t)).set ↔ _
  rw [View.set_slice_whole, Rect.mem_set_unit]
  exact Iff.rfl

/-- Every entry of the output array is in the block of the last point of its batch. -/
theorem covered (i : S2x8x128.Idx) : ∃ t : Fin cfg0.N, (cfg0.win 2).flush t = true ∧ i ∈ ((cfg0.win 2).blk t).view.set := by
  have hi0 : (i 0).val < 2 := (i 0).isLt
  have hi1 : (i 1).val < 8 := (i 1).isLt
  have hi2 : (i 2).val < 128 := (i 2).isLt
  have hlt : (i 0).val * 64 + 63 < cfg0.N := lt_of_lt_of_eq (by omega : (i 0).val * 64 + 63 < 128) (show cfg0.N = 128 from N_0).symm
  refine ⟨⟨(i 0).val * 64 + 63, hlt⟩, (flush0_2 _).mpr (by show ((i 0).val * 64 + 63) % 64 = 63; omega), ?_⟩
  obtain ⟨-, -, -, -, -, -, e0, e1, e2⟩ := idx_facts ⟨(i 0).val * 64 + 63, hlt⟩
  have ev : (⟨(i 0).val * 64 + 63, hlt⟩ : Fin cfg0.N).val = (i 0).val * 64 + 63 := rfl
  rw [mem_blk]
  intro a
  match a with
  | ⟨0, _⟩ => show win0_2.index ⟨(i 0).val * 64 + 63, hlt⟩ (0 : Fin 3) * 1 ≤ (i 0).val ∧ (i 0).val < win0_2.index ⟨(i 0).val * 64 + 63, hlt⟩ (0 : Fin 3) * 1 + 1; omega
  | ⟨1, _⟩ => show win0_2.index ⟨(i 0).val * 64 + 63, hlt⟩ (1 : Fin 3) * 8 ≤ (i 1).val ∧ (i 1).val < win0_2.index ⟨(i 0).val * 64 + 63, hlt⟩ (1 : Fin 3) * 8 + 8; omega
  | ⟨2, _⟩ => show win0_2.index ⟨(i 0).val * 64 + 63, hlt⟩ (2 : Fin 3) * 128 ≤ (i 2).val ∧ (i 2).val < win0_2.index ⟨(i 0).val * 64 + 63, hlt⟩ (2 : Fin 3) * 128 + 128; omega

/-- The output array after the run. -/
theorem final (c : Dev nD) : (dats m 0 c).arrAt 2 cfg0.N = planes m c :=
  (dats m 0 c).arrAt_eq_of_cover 2 (planes m c) (fun t ht => flushed_eq m c t ht) (fun i => covered i)

/-! ## The host lines after the call -/

/-- The result buffer after the tail: the mean over the two batches of the losses. -/
theorem tail_eq (c : Dev nD) :
    Pipeline.afterTail₀ cfgs (dats m) 0 (V0 m) [hostOps1] c main_v4 = batchMean (fun i => loss (xarr m c) (yarr m c) (i 0)) := by
  unfold Pipeline.afterTail₀
  show StableHlo.after hostOps1 _ (Proc.devRef .tc main_v4) = _
  after_results
  have hW : Pipeline.withArrays (cfgs 0).spec c (V0 m c) (fun w => (dats m 0 c).arrAt w (cfgs 0).N) (Proc.devRef .tc main_v0)
      = planes m c := (Pipeline.withArrays_arr spec0 launch0.win.arr_inj c _ _ 2).trans (final m c)
  rw [hW]
  unfold batchMean
  refine congrArg (fun v => Host.divf (F := Ideal) (Host.reduceAdd (F := Ideal) v (constant (F := Ideal) S_ .f32 0x00000000#32)
    Facts₀.reducesTo_S2_S_d0 Facts₀.h_S_) (constant (F := Ideal) S_ .f32 0x40000000#32)) (funext fun i => ?_)
  obtain ⟨b, rfl⟩ : ∃ b : Fin 2, i = ix1 b := ⟨i 0, eq_ix1 i⟩
  show shapeCast S2 (extractStridedSlice S2x1x1 ![0, 0, 0] (planes m c) Facts₀.slices_S2x8x128_S2x1x1_0_0_0) Facts₀.shapeCasts_S2x1x1_S2 (ix1 b)
    = loss (xarr m c) (yarr m c) b
  refine (shapeCast_apply _ _ (ix1 b) (ix3 b (0 : Fin 1) (0 : Fin 1)) (by
    rw [Shape.rowMajor_val_three, Shape.rowMajor_val_one]
    show (b.val * 1 + 0) * 1 + 0 = b.val
    omega)).trans ?_
  refine (extractStridedSlice_apply _ _ _ (ix3 b (0 : Fin 1) (0 : Fin 1)) (ix3 b (0 : Fin 8) (0 : Fin 128)) (fun a => by
    match a with
    | ⟨0, _⟩ => show b.val = 0 + b.val; omega
    | ⟨1, _⟩ => rfl
    | ⟨2, _⟩ => rfl)).trans ?_
  rfl

/-! ## The run -/

/-- Every weakly fair execution of the idealized kernel program terminates with the result buffer at the mean over the
    two batches of the specification's loss of the argument arrays, and the arguments unchanged. -/
theorem run : θ_run defs (onTc (τ := τ) (main (F := Ideal))) ⟨m, fun _ => 0, ρ⟩ (fun r => ∀ c : Dev nD,
      r.2.mem ((c.tc : Thread nD τ).loc main_v4)
        = batchMean (fun i => loss (m ((c.tc : Thread nD τ).loc main_arg0)) (m ((c.tc : Thread nD τ).loc main_arg1)) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v4 (Pipeline.mem_restRefs_of main_v4 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Run

end
-- ==== Proof.ReferenceValue.lean ====
/-
  The reference's per-batch loss is the specification's.

  The reference forms the whole `2 × 4096 × 16384` table of distances √ max ((|a_i|² + |r_j|²) − 2 (a_i·r_j)) 0 at
  once, takes its minima along the sampled axis and along the raw axis, and combines
  5 · (∑ⱼ minᵢ) / 16384 + 1 · (∑ᵢ minⱼ) / 4096 + maxᵢ minⱼ. Its sums start from the word of zero (`0 + s = s`) and the
  middle term carries a factor `1.0` (`1 · s = s`); nothing else separates it from the specification.
-/
import proofs.«140951_j70480413328151_1_alg».proof.Proof.Gen.ReferenceIdeal.Read
import proofs.«140951_j70480413328151_1_alg».proof.Proof.ChamferSpec
import Idealize.ShloMosaic.PureOps.Reduce

set_option maxRecDepth 65536

noncomputable section

namespace Cert.ReferenceIdeal.RefValue

open Idealize.ShloMosaic Idealize.ShloMosaic.ValueIdx Cert.ReferenceIdeal Cert.ReferenceIdeal.Read Cert.Chamfer
open Cert.ReferenceIdeal.Facts₀

/-- The word of `1.0` denotes `1`. -/
theorem ofBits_one : Ideal.ofBits .f32 0x3F800000#32 = 1 := by
  simp [Ideal.ofBits, Ideal.ieee, -EReal.coe_mul]; norm_num

variable (x : (⟨S2x4096x4, .f32⟩ : BufTy).Contents (Elt Ideal)) (y : (⟨S2x16384x4, .f32⟩ : BufTy).Contents (Elt Ideal))

/-- A sampled point's coordinate `k`, through the slice to three coordinates. -/
theorem sampled_at (b : Fin 2) (i : Fin 4096) (k : Fin 3) :
    val_main_v0 (F := Ideal) x (ix3 b i k) = x (ix3 b i (c4 k)) := by
  rw [val_main_v0_apply]
  exact congrArg x (funext fun a => Fin.ext (by match a with | ⟨0, _⟩ => rfl | ⟨1, _⟩ => rfl | ⟨2, _⟩ => rfl))

/-- A raw point's coordinate `k`, through the slice to three coordinates. -/
theorem raw_at (b : Fin 2) (j : Fin 16384) (k : Fin 3) :
    val_main_v1 (F := Ideal) y (ix3 b j k) = y (ix3 b j (c4 k)) := by
  rw [val_main_v1_apply]
  exact congrArg y (funext fun a => Fin.ext (by match a with | ⟨0, _⟩ => rfl | ⟨1, _⟩ => rfl | ⟨2, _⟩ => rfl))

/-- `|a_i|²`, broadcast along the raw axis. -/
theorem sampledSq_ref (b : Fin 2) (i : Fin 4096) (j : Fin 16384) :
    val_main_v8 (F := Ideal) x (ix3 b i j) = sampledSq x b i := by
  rw [val_main_v8_apply, val_main_v4_apply, val_main_v3_apply]
  show Ideal.ofBits .f32 0x00000000#32 + _ = _
  rw [Ideal.ofBits_zero_f32, zero_add]
  unfold sampledSq
  refine Finset.sum_congr rfl fun k _ => ?_
  have e : idx_main_v3 (idx_main_v4 (idx_main_v8 (ix3 b i j))) k = ix3 b i k :=
    funext fun a => Fin.ext (by match a with | ⟨0, _⟩ => rfl | ⟨1, _⟩ => rfl | ⟨2, _⟩ => rfl)
  rw [e, val_main_v2_apply, sampled_at]
  rfl

/-- `|r_j|²`, broadcast along the sampled axis. -/
theorem rawSq_ref (b : Fin 2) (i : Fin 4096) (j : Fin 16384) :
    val_main_v9 (F := Ideal) y (ix3 b i j) = rawSq y b j := by
  rw [val_main_v9_apply, val_main_v7_apply, val_main_v6_apply]
  show Ideal.ofBits .f32 0x00000000#32 + _ = _
  rw [Ideal.ofBits_zero_f32, zero_add]
  unfold rawSq
  refine Finset.sum_congr rfl fun k _ => ?_
  have e : idx_main_v6 (idx_main_v7 (idx_main_v9 (ix3 b i j))) k = ix3 b j k :=
    funext fun a => Fin.ext (by match a with | ⟨0, _⟩ => rfl | ⟨1, _⟩ => rfl | ⟨2, _⟩ => rfl)
  rw [e, val_main_v5_apply, raw_at]
  rfl

/-- `a_i · r_j`: the batched product of the sampled cloud with the transposed raw cloud. -/
theorem inner_ref (b : Fin 2) (i : Fin 4096) (j : Fin 16384) :
    val_main_v12 (F := Ideal) x y (ix3 b i j) = crossTerm x y b i j := by
  rw [val_main_v12_apply]
  unfold crossTerm
  refine Finset.sum_congr rfl fun k _ => ?_
  have el : lidx_main_v12 (ix3 b i j) k = ix3 b i k :=
    funext fun a => Fin.ext (by match a with | ⟨0, _⟩ => rfl | ⟨1, _⟩ => rfl | ⟨2, _⟩ => rfl)
  have er : idx_main_v11 (ridx_main_v12 (ix3 b i j) k) = ix3 b j k :=
    funext fun a => Fin.ext (by match a with | ⟨0, _⟩ => rfl | ⟨1, _⟩ => rfl | ⟨2, _⟩ => rfl)
  rw [el, val_main_v11_apply, er, sampled_at, raw_at]

/-- The table of distances. -/
theorem dist_ref (b : Fin 2) (i : Fin 4096) (j : Fin 16384) :
    val_main_v18 (F := Ideal) x y (ix3 b i j) = pointDist x y b i j := by
  rw [val_main_v18_apply, val_main_v17_apply, val_main_v15_apply, val_main_v10_apply, val_main_v14_apply,
    sampledSq_ref, rawSq_ref, inner_ref]
  rfl

/-- Per raw point, the nearest sampled point: the minimum along the sampled axis. -/
theorem nearestSampled_ref (b : Fin 2) (j : Fin 16384) :
    val_main_v19 (F := Ideal) x y (ix2 b j) = nearestSampled x y b j := by
  unfold val_main_v19
  have hR : S2x4096x16384.Reduces [1] S2x16384 :=
    ⟨reducesTo_S2x4096x16384_S2x16384_d1.1, by decide, reducesTo_S2x4096x16384_S2x16384_d1.2⟩
  have h1 := Host.reduce_eq_fold_single (FloatOps.minimumf (F := Ideal) (φ := .f32)) (val_main_v18 (F := Ideal) x y)
    (val_main_cst_3 (F := Ideal)) reducesTo_S2x4096x16384_S2x16384_d1 hR h_S_ (ix2 b j)
  refine h1.trans ?_
  unfold nearestSampled
  have e : (val_main_v18 (F := Ideal) x y ∘ hR.lift (ix2 b j)) = fun i : Fin 4096 => pointDist x y b i j := funext fun i =>
    (congrArg (val_main_v18 (F := Ideal) x y)
      (funext fun a => Fin.ext (by match a with | ⟨0, _⟩ => rfl | ⟨1, _⟩ => rfl | ⟨2, _⟩ => rfl))).trans (dist_ref x y b i j)
  rw [e]
  rfl

/-- Per sampled point, the nearest raw point: the minimum along the raw axis. -/
theorem nearestRaw_ref (b : Fin 2) (i : Fin 4096) :
    val_main_v20 (F := Ideal) x y (ix2 b i) = nearestRaw x y b i := by
  unfold val_main_v20
  have hR : S2x4096x16384.Reduces [2] S2x4096 :=
    ⟨reducesTo_S2x4096x16384_S2x4096_d2.1, by decide, reducesTo_S2x4096x16384_S2x4096_d2.2⟩
  have h1 := Host.reduce_eq_fold_single (FloatOps.minimumf (F := Ideal) (φ := .f32)) (val_main_v18 (F := Ideal) x y)
    (val_main_cst_4 (F := Ideal)) reducesTo_S2x4096x16384_S2x4096_d2 hR h_S_ (ix2 b i)
  refine h1.trans ?_
  unfold nearestRaw
  have e : (val_main_v18 (F := Ideal) x y ∘ hR.lift (ix2 b i)) = fun j : Fin 16384 => pointDist x y b i j := funext fun j =>
    (congrArg (val_main_v18 (F := Ideal) x y)
      (funext fun a => Fin.ext (by match a with | ⟨0, _⟩ => rfl | ⟨1, _⟩ => rfl | ⟨2, _⟩ => rfl))).trans (dist_ref x y b i j)
  rw [e]
  rfl

/-- The farthest of the sampled points' nearest raw points. -/
theorem farthest_ref (b : Fin 2) :
    val_main_v27 (F := Ideal) x y (ix1 b) = Finset.univ.fold max wNegInf (fun i : Fin 4096 => nearestRaw x y b i) := by
  unfold val_main_v27
  have hR : S2x4096.Reduces [1] S2 := ⟨reducesTo_S2x4096_S2_d1.1, by decide, reducesTo_S2x4096_S2_d1.2⟩
  have h1 := Host.reduce_eq_fold_single (FloatOps.maximumf (F := Ideal) (φ := .f32)) (val_main_v20 (F := Ideal) x y)
    (val_main_cst_9 (F := Ideal)) reducesTo_S2x4096_S2_d1 hR h_S_ (ix1 b)
  refine h1.trans ?_
  have hl : ∀ i : Fin 4096, hR.lift (ix1 b) i = ix2 b i := fun i =>
    funext fun a => Fin.ext (by match a with | ⟨0, _⟩ => rfl | ⟨1, _⟩ => rfl)
  have e : (val_main_v20 (F := Ideal) x y ∘ hR.lift (ix1 b)) = fun i : Fin 4096 => nearestRaw x y b i := by
    funext i
    rw [Function.comp_apply, hl i]
    exact nearestRaw_ref x y b i
  rw [e]
  rfl

/-- The reference's loss of batch `b` is the specification's. -/
theorem loss_ref (i : S2.Idx) : val_main_v33 (F := Ideal) x y i = loss x y (i 0) := by
  obtain ⟨b, rfl⟩ : ∃ b : Fin 2, i = ix1 b := ⟨i 0, eq_ix1 i⟩
  rw [val_main_v33_apply, val_main_v32_apply, val_main_v29_apply, val_main_v31_apply, val_main_v23_apply, val_main_v26_apply,
    val_main_v21_apply, val_main_v24_apply, farthest_ref]
  have e1 : ∀ k : Fin 16384, val_main_v19 (F := Ideal) x y (idx_main_v21 (ix1 b) k) = nearestSampled x y b k := fun k =>
    (congrArg (val_main_v19 (F := Ideal) x y) (funext fun a => Fin.ext (by match a with | ⟨0, _⟩ => rfl | ⟨1, _⟩ => rfl))).trans
      (nearestSampled_ref x y b k)
  have e2 : ∀ k : Fin 4096, val_main_v20 (F := Ideal) x y (idx_main_v24 (ix1 b) k) = nearestRaw x y b k := fun k =>
    (congrArg (val_main_v20 (F := Ideal) x y) (funext fun a => Fin.ext (by match a with | ⟨0, _⟩ => rfl | ⟨1, _⟩ => rfl))).trans
      (nearestRaw_ref x y b k)
  simp only [e1, e2]
  show (Ideal.ofBits .f32 0x40A00000#32 * Ideal.div (Ideal.ofBits .f32 0x00000000#32 + ∑ k : Fin 16384, nearestSampled x y b k) (Ideal.ofBits .f32 0x46800000#32)
      + Ideal.ofBits .f32 0x3F800000#32 * Ideal.div (Ideal.ofBits .f32 0x00000000#32 + ∑ k : Fin 4096, nearestRaw x y b k) (Ideal.ofBits .f32 0x45800000#32))
      + Finset.univ.fold max wNegInf (fun i : Fin 4096 => nearestRaw x y b i) = _
  rw [Ideal.ofBits_zero_f32, zero_add, zero_add, ofBits_one, one_mul]
  rfl

end Cert.ReferenceIdeal.RefValue

end
-- ==== Proof.lean ====
/-
  A two-sided nearest-neighbour (Chamfer-style) loss between a sampled cloud of 4096 points and a raw cloud of 16384
  points, in two batches, over the first three of four stored coordinates: with
    dist i j = √ max (|a_i|² + |r_j|² − 2 (a_i·r_j)) 0,
  the loss of a batch is 5 · (∑ⱼ minᵢ dist) / 16384 + (∑ᵢ minⱼ dist) / 4096 + maxᵢ minⱼ dist, and the result is the mean of
  the two batches' losses.

  The reference forms the whole 4096 × 16384 table of a batch at once. The kernel sweeps the raw points in 64 tiles of
  256: per tile it forms the 256 × 4096 table, folds its column minima into a running minimum per sampled point and the
  sum of its row minima into a running sum, and after the last tile writes the loss from the two accumulators. On the
  extended reals the two agree because a minimum and a sum over the raw points may be taken tile by tile (the minimum by
  its universal property, the sum by splitting an initial segment), because the kernel's `|r|² + |a|²` and `r·a` are the
  reference's `|a|² + |r|²` and `a·r` (addition and multiplication commute), because a change of float format is the
  identity and a matrix product into a zero accumulator is the plain sum of products, and because the reference's
  `0 + s` and `1 · s` are `s`. No step needs the inputs to be finite.

  The modules: ChamferSpec (the loss as one function of the two arrays), ChamferTiles (minimum and sum tile by tile),
  KernelTile (the body's arithmetic read at an index), KernelPieces (what each control case of the body leaves),
  KernelStep (one tile of the sweep), KernelRun (the induction over the grid points, the output array, the host lines
  after the call), ReferenceValue (the reference's loss is the specification's).
-/
import proofs.«140951_j70480413328151_1_alg».proof.Defs
import proofs.«140951_j70480413328151_1_alg».proof.Proof.Gen.Kernel
import proofs.«140951_j70480413328151_1_alg».proof.Proof.Gen.Kernel.Skeleton
import proofs.«140951_j70480413328151_1_alg».proof.Proof.Gen.Kernel.Launch
import proofs.«140951_j70480413328151_1_alg».proof.Proof.Gen.Kernel.Points
import proofs.«140951_j70480413328151_1_alg».proof.Proof.Gen.Kernel.Frame
import proofs.«140951_j70480413328151_1_alg».proof.Proof.Gen.KernelIdeal
import proofs.«140951_j70480413328151_1_alg».proof.Proof.Gen.KernelIdeal.Skeleton
import proofs.«140951_j70480413328151_1_alg».proof.Proof.Gen.KernelIdeal.Launch
import proofs.«140951_j70480413328151_1_alg».proof.Proof.Gen.KernelIdeal.Points
import proofs.«140951_j70480413328151_1_alg».proof.Proof.Gen.KernelIdeal.Frame
import proofs.«140951_j70480413328151_1_alg».proof.Proof.Gen.ReferenceIdeal
import proofs.«140951_j70480413328151_1_alg».proof.Proof.Gen.Pre_finite_inputs
import proofs.«140951_j70480413328151_1_alg».proof.Proof.Gen.ReferenceIdeal.Run
import proofs.«140951_j70480413328151_1_alg».proof.Proof.Gen.ReferenceIdeal.Read
import proofs.«140951_j70480413328151_1_alg».proof.Proof.KernelRun
import proofs.«140951_j70480413328151_1_alg».proof.Proof.ReferenceValue
import Idealize.ShloMosaic.Adequacy
import Idealize.ShloMosaic.Init

noncomputable section

namespace Cert.Proof

open Idealize.ShloMosaic Idealize.SL.Sem

/-- The kernel as printed runs, and its arguments end unchanged. -/
theorem frame_kernel : Cert.frame_Kernel := fun m ρ _ => Cert.Kernel.Gen.frame m ρ

/-- The kernel read at the extended reals runs, and its arguments end unchanged. -/
theorem frame_kernelIdeal : Cert.frame_KernelIdeal := fun m ρ _ => Cert.KernelIdeal.Gen.frame m ρ

/-- The reference runs, and its arguments end unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two clouds, the kernel and the reference both end with the mean over the two
    batches of the specification's loss: the kernel by its sweep over the raw tiles, the reference by its whole table. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, (hagree c).1, (hagree c).2]
  have e : Cert.ReferenceIdeal.Read.val_main_v33 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = fun i => Cert.Chamfer.loss
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) (i 0) :=
    funext fun i => Cert.ReferenceIdeal.RefValue.loss_ref _ _ i
  show Cert.Chamfer.batchMean (Cert.ReferenceIdeal.Read.val_main_v33 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))) = _
  rw [e]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
